-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x1 : Shape := ⟨2, ![800000, 1]⟩
abbrev S128x128 : Shape := ⟨2, ![128, 128]⟩
abbrev S128 : Shape := ⟨1, ![128]⟩
abbrev S1x128 : Shape := ⟨2, ![1, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S128x1 .f32) (main_arg16 : FVec F S1 .f32) (main_v63 : IVec S_ 1) (main_v67 : IVec S_ 1) : IVec S_ 1 :=
  let main_v68 : IVec S_ 1 := andi main_v63 main_v67
  let main_v69 : FVec F S128x1 .f32 := Host.absf main_arg15
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg12 : FVec F S128 .f32) (main_arg13 : FVec F S1x128 .f32) (main_arg14 : FVec F S128 .f32) (main_arg15 : FVec F S128x1 .f32) (main_arg16 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S1x128 .f32 := Host.absf main_arg13
  let main_cst_22 : FVec F S_ .f32 := constant S_ .f32 0x7F800000#32
  let main_v60 : FVec F S1x128 .f32 := broadcastInDim S1x128 ![] bcast_S_S1x128 main_cst_22
  let main_v61 : IVec S1x128 1 := cmpf .olt main_v59 main_v60
  let main_c_23 : IVec S_ 1 := constantI S_ 1 1#1
  let main_v62 : IVec S_ 1 := (fun x v => Host.reduce IntOp.andi x v reducesTo_S1x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_v63 main_v67

def fn_part2 {F : FTy → Type} [FloatOps F] (main_arg8 : FVec F S128 .f32) (main_arg9 : FVec F S1x128 .f32) (main_arg10 : FVec F S128 .f32) (main_arg11 : FVec F S128x128 .f32) (main_arg12 : FVec F S128 .f32) (main_arg13 : FVec F S1x128 .f32) (main_arg14 : FVec F S128 .f32) (main_arg15 : FVec F S128x1 .f32) (main_arg16 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S1x128 .f32 := Host.absf main_arg9
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_v48 main_v49 main_v50

def fn_part1 {F : FTy → Type} [FloatOps F] (main_arg5 : FVec F S1x128 .f32) (main_arg6 : FVec F S128 .f32) (main_arg7 : FVec F S128x128 .f32) (main_arg8 : FVec F S128 .f32) (main_arg9 : FVec F S1x128 .f32) (main_arg10 : FVec F S128 .f32) (main_arg11 : FVec F S128x128 .f32) (main_arg12 : FVec F S128 .f32) (main_arg13 : FVec F S1x128 .f32) (main_arg14 : FVec F S128 .f32) (main_arg15 : FVec F S128x1 .f32) (main_arg16 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1x128 .f32 := Host.absf main_arg5
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x128 .f32) (main_arg1 : IVec S2x800000 32) (main_arg2 : FVec F S800000x1 .f32) (main_arg3 : FVec F S128x128 .f32) (main_arg4 : FVec F S128 .f32) (main_arg5 : FVec F S1x128 .f32) (main_arg6 : FVec F S128 .f32) (main_arg7 : FVec F S128x128 .f32) (main_arg8 : FVec F S128 .f32) (main_arg9 : FVec F S1x128 .f32) (main_arg10 : FVec F S128 .f32) (main_arg11 : FVec F S128x128 .f32) (main_arg12 : FVec F S128 .f32) (main_arg13 : FVec F S1x128 .f32) (main_arg14 : FVec F S128 .f32) (main_arg15 : FVec F S128x1 .f32) (main_arg16 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x1 .f32 := Host.absf main_arg2
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x800000 : Shape := ⟨2, ![2, 800000]⟩
abbrev S800000x1 : Shape := ⟨2, ![800000, 1]⟩
abbrev S128x128 : Shape := ⟨2, ![128, 128]⟩
abbrev S128 : Shape := ⟨1, ![128]⟩
abbrev S1x128 : Shape := ⟨2, ![1, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S2000x128 : Shape := ⟨2, ![2000, 128]⟩
abbrev S800000x128 : Shape := ⟨2, ![800000, 128]⟩
abbrev S1x1 : Shape := ⟨2, ![1, 1]⟩

abbrev nBuf : Space → Nat
  | .hbm => 111
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x1, .f32⟩
  | .hbm, ⟨3, _⟩ => ⟨S128x128, .f32⟩
  | .hbm, ⟨4, _⟩ => ⟨S128, .f32⟩
  | .hbm, ⟨5, _⟩ => ⟨S1x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x128, .f32⟩
  | .hbm, ⟨14, _⟩ => ⟨S128, .f32⟩
  | .hbm, ⟨15, _⟩ => ⟨S128x1, .f32⟩
  | .hbm, ⟨16, _⟩ => ⟨S1, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S_, .f32⟩
  | .hbm, ⟨22, _⟩ => ⟨S128, .f32⟩
  | .hbm, ⟨23, _⟩ => ⟨S50000x128, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S800000x128, .f32⟩
  | .hbm, ⟨34, _⟩ => ⟨S1x128, .f32⟩
  | .hbm, ⟨35, _⟩ => ⟨S800000x128, .f32⟩
  | .hbm, ⟨36, _⟩ => ⟨S800000x128, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S800000x128, .f32⟩
  | .hbm, ⟨41, _⟩ => ⟨S800000x128, .f32⟩
  | .hbm, ⟨42, _⟩ => ⟨S_, .f32⟩
  | .hbm, ⟨43, _⟩ => ⟨S800000x128, .f32⟩
  | .hbm, ⟨44, _⟩ => ⟨S800000x128, .f32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S800000x128, .f32⟩
  | .hbm, ⟨61, _⟩ => ⟨S1x128, .f32⟩
  | .hbm, ⟨62, _⟩ => ⟨S800000x128, .f32⟩
  | .hbm, ⟨63, _⟩ => ⟨S800000x128, .f32⟩
  | .hbm, ⟨64, _⟩ => ⟨S800000x128, .f32⟩
  | .hbm, ⟨65, _⟩ => ⟨S800000x128, .f32⟩
  | .hbm, ⟨66, _⟩ => ⟨S_, .f32⟩
  | .hbm, ⟨67, _⟩ => ⟨S800000x128, .f32⟩
  | .hbm, ⟨68, _⟩ => ⟨S800000x128, .f32⟩
  | .hbm, ⟨69, _⟩ => ⟨S_, .f32⟩
  | .hbm, ⟨70, _⟩ => ⟨S800000x128, .f32⟩
  | .hbm, ⟨71, _⟩ => ⟨S800000x128, .f32⟩
  | .hbm, ⟨72, _⟩ => ⟨S800000x128, .f32⟩
  | .hbm, ⟨73, _⟩ => ⟨S_, .f32⟩
  | .hbm, ⟨74, _⟩ => ⟨S50000x128, .f32⟩
  | .hbm, ⟨75, _⟩ => ⟨S800000x1, .i32⟩
  | .hbm, ⟨76, _⟩ => ⟨S50000x128, .f32⟩
  | .hbm, ⟨77, _⟩ => ⟨S50000x128, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000x128, .f32⟩
  | .hbm, ⟨87, _⟩ => ⟨S800000x128, .f32⟩
  | .hbm, ⟨88, _⟩ => ⟨S1x128, .f32⟩
  | .hbm, ⟨89, _⟩ => ⟨S800000x128, .f32⟩
  | .hbm, ⟨90, _⟩ => ⟨S800000x128, .f32⟩
  | .hbm, ⟨91, _⟩ => ⟨S800000x128, .f32⟩
  | .hbm, ⟨92, _⟩ => ⟨S800000x128, .f32⟩
  | .hbm, ⟨93, _⟩ => ⟨S_, .f32⟩
  | .hbm, ⟨94, _⟩ => ⟨S800000x128, .f32⟩
  | .hbm, ⟨95, _⟩ => ⟨S800000x128, .f32⟩
  | .hbm, ⟨96, _⟩ => ⟨S_, .f32⟩
  | .hbm, ⟨97, _⟩ => ⟨S800000x128, .f32⟩
  | .hbm, ⟨98, _⟩ => ⟨S800000x128, .f32⟩
  | .hbm, ⟨99, _⟩ => ⟨S800000x128, .f32⟩
  | .hbm, ⟨100, _⟩ => ⟨S_, .f32⟩
  | .hbm, ⟨101, _⟩ => ⟨S50000x128, .f32⟩
  | .hbm, ⟨102, _⟩ => ⟨S800000x1, .i32⟩
  | .hbm, ⟨103, _⟩ => ⟨S50000x128, .f32⟩
  | .hbm, ⟨104, _⟩ => ⟨S1x128, .f32⟩
  | .hbm, ⟨105, _⟩ => ⟨S_, .f32⟩
  | .hbm, ⟨106, _⟩ => ⟨S1x128, .f32⟩
  | .hbm, ⟨107, _⟩ => ⟨S1x128, .f32⟩
  | .hbm, ⟨108, _⟩ => ⟨S1x1, .f32⟩
  | .hbm, ⟨109, _⟩ => ⟨S1x1, .f32⟩
  | .hbm, ⟨110, _⟩ => ⟨S1x1, .f32⟩
  | .local _ .vmem, ⟨0, _⟩ => ⟨S2000x128, .f32⟩
  | .local _ .vmem, ⟨1, _⟩ => ⟨S2000x128, .f32⟩
  | .local _ .vmem, ⟨2, _⟩ => ⟨S128, .f32⟩
  | .local _ .vmem, ⟨3, _⟩ => ⟨S128x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128, .f32⟩
  | .local _ .vmem, ⟨9, _⟩ => ⟨S128x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128, .f32⟩
  | .local _ .vmem, ⟨21, _⟩ => ⟨S1x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_c : Ref sig .tc := ⟨.hbm, 24, rfl⟩
abbrev main_v6 : Ref sig .tc := ⟨.hbm, 25, rfl⟩
abbrev main_v7 : Ref sig .tc := ⟨.hbm, 26, rfl⟩
abbrev main_c_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_4 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_6 : Ref sig .tc := ⟨.hbm, 66, rfl⟩
abbrev main_v41 : Ref sig .tc := ⟨.hbm, 67, rfl⟩
abbrev main_v42 : Ref sig .tc := ⟨.hbm, 68, rfl⟩
abbrev main_cst_7 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_8 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_9 : Ref sig .tc := ⟨.hbm, 78, rfl⟩
abbrev main_v50 : Ref sig .tc := ⟨.hbm, 79, rfl⟩
abbrev main_v51 : Ref sig .tc := ⟨.hbm, 80, rfl⟩
abbrev main_c_10 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_11 : Ref sig .tc := ⟨.hbm, 93, rfl⟩
abbrev main_v63 : Ref sig .tc := ⟨.hbm, 94, rfl⟩
abbrev main_v64 : Ref sig .tc := ⟨.hbm, 95, rfl⟩
abbrev main_cst_12 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_13 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_14 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S128 : S_.BroadcastsInDim S128 (![] : Fin 0 → Fin S128.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S800000 : S_.BroadcastsInDim S800000 (![] : Fin 0 → Fin S800000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  shapeCasts_S2000x128_S2000x128 : S2000x128.ShapeCasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S2000x128_S128 : S2000x128.Reduces [0] S128
  bcast_S_S1x128 : S_.BroadcastsInDim S1x128 (![] : Fin 0 → Fin S1x128.rank)
  bcast_S1_S1x1_1 : S1.BroadcastsInDim S1x1 (![1] : Fin 1 → Fin S1x1.rank)
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  dot_S800000x1_S1x128_S800000x128_1_0_0_1_n_n_wf : DotDims.WF S800000x1 S1x128 S800000x128 [1] [0] [0] [1] [] []
  scatter_S50000x128_S800000x1_S800000x128_1_0_0_1_wf : ScatterDims.WF S50000x128 S800000x1 S800000x128 [1] [0] [0] 1
  dot_S1x128_S128x1_S1x1_1_0_0_1_n_n_wf : DotDims.WF S1x128 S128x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x1_S1x128_S800000x128_1_0_0_1_n_n : DotDims S800000x1 S1x128 S800000x128 where
  lhsContracting := [1]
  rhsContracting := [0]
  lhsNonContracting := [0]
  rhsNonContracting := [1]
  lhsBatch := []
  rhsBatch := []
  wf := dot_S800000x1_S1x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1x128_S128x1_S1x1_1_0_0_1_n_n : DotDims S1x128 S128x1 S1x1 where
  lhsContracting := [1]
  rhsContracting := [0]
  lhsNonContracting := [0]
  rhsNonContracting := [1]
  lhsBatch := []
  rhsBatch := []
  wf := dot_S1x128_S128x1_S1x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v70) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v71) S1x128.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x1 : Shape := ⟨2, ![800000, 1]⟩
abbrev S128x128 : Shape := ⟨2, ![128, 128]⟩
abbrev S128 : Shape := ⟨1, ![128]⟩
abbrev S1x128 : Shape := ⟨2, ![1, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S800000x128 : Shape := ⟨2, ![800000, 128]⟩
abbrev S_ : Shape := ⟨0, ![]⟩
abbrev S1x1 : Shape := ⟨2, ![1, 1]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S2x800000, .i32⟩
  | 2 => ⟨S800000x1, .f32⟩
  | 3 => ⟨S128x128, .f32⟩
  | 4 => ⟨S128, .f32⟩
  | 5 => ⟨S1x128, .f32⟩
  | 6 => ⟨S128, .f32⟩
  | 7 => ⟨S128x128, .f32⟩
  | 8 => ⟨S128, .f32⟩
  | 9 => ⟨S1x128, .f32⟩
  | 10 => ⟨S128, .f32⟩
  | 11 => ⟨S128x128, .f32⟩
  | 12 => ⟨S128, .f32⟩
  | 13 => ⟨S1x128, .f32⟩
  | 14 => ⟨S128, .f32⟩
  | 15 => ⟨S128x1, .f32⟩
  | 16 => ⟨S1, .f32⟩
  | 17 => ⟨S1x800000, .i32⟩
  | 18 => ⟨S800000, .i32⟩
  | 19 => ⟨S1x800000, .i32⟩
  | 20 => ⟨S800000, .i32⟩
  | 21 => ⟨S50000x128, .f32⟩
  | 22 => ⟨S800000x128, .f32⟩
  | 23 => ⟨S1x128, .f32⟩
  | 24 => ⟨S800000x128, .f32⟩
  | 25 => ⟨S800000x128, .f32⟩
  | 26 => ⟨S800000x128, .f32⟩
  | 27 => ⟨S800000x128, .f32⟩
  | 28 => ⟨S_, .f32⟩
  | 29 => ⟨S800000x128, .f32⟩
  | 30 => ⟨S800000x128, .f32⟩
  | 31 => ⟨S_, .f32⟩
  | 32 => ⟨S800000x128, .f32⟩
  | 33 => ⟨S800000x128, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x128, .f32⟩
  | 43 => ⟨S800000x128, .f32⟩
  | 44 => ⟨S_, .f32⟩
  | 45 => ⟨S50000x128, .f32⟩
  | 46 => ⟨S800000x1, .i32⟩
  | 47 => ⟨S50000x128, .f32⟩
  | 48 => ⟨S1x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S50000x128, .f32⟩
  | 55 => ⟨S800000x128, .f32⟩
  | 56 => ⟨S1x128, .f32⟩
  | 57 => ⟨S800000x128, .f32⟩
  | 58 => ⟨S800000x128, .f32⟩
  | 59 => ⟨S800000x128, .f32⟩
  | 60 => ⟨S800000x128, .f32⟩
  | 61 => ⟨S_, .f32⟩
  | 62 => ⟨S800000x128, .f32⟩
  | 63 => ⟨S800000x128, .f32⟩
  | 64 => ⟨S_, .f32⟩
  | 65 => ⟨S800000x128, .f32⟩
  | 66 => ⟨S800000x128, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x128, .f32⟩
  | 76 => ⟨S800000x128, .f32⟩
  | 77 => ⟨S_, .f32⟩
  | 78 => ⟨S50000x128, .f32⟩
  | 79 => ⟨S800000x1, .i32⟩
  | 80 => ⟨S50000x128, .f32⟩
  | 81 => ⟨S1x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S50000x128, .f32⟩
  | 88 => ⟨S800000x128, .f32⟩
  | 89 => ⟨S1x128, .f32⟩
  | 90 => ⟨S800000x128, .f32⟩
  | 91 => ⟨S800000x128, .f32⟩
  | 92 => ⟨S800000x128, .f32⟩
  | 93 => ⟨S800000x128, .f32⟩
  | 94 => ⟨S_, .f32⟩
  | 95 => ⟨S800000x128, .f32⟩
  | 96 => ⟨S800000x128, .f32⟩
  | 97 => ⟨S_, .f32⟩
  | 98 => ⟨S800000x128, .f32⟩
  | 99 => ⟨S800000x128, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x128, .f32⟩
  | 109 => ⟨S800000x128, .f32⟩
  | 110 => ⟨S_, .f32⟩
  | 111 => ⟨S50000x128, .f32⟩
  | 112 => ⟨S800000x1, .i32⟩
  | 113 => ⟨S50000x128, .f32⟩
  | 114 => ⟨S1x128, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S_, .f32⟩
  | 121 => ⟨S128, .f32⟩
  | 122 => ⟨S1x128, .f32⟩
  | 123 => ⟨S_, .f32⟩
  | 124 => ⟨S1x128, .f32⟩
  | 125 => ⟨S1x128, .f32⟩
  | 126 => ⟨S1x1, .f32⟩
  | 127 => ⟨S1x1, .f32⟩
  | _ => ⟨S50000x128, .f32⟩

abbrev hbmTy0_1 (i : Nat) : BufTy := match i % 128 with
  | 0 => ⟨S1x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_1 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call0_cst : Ref sig .tc := ⟨.hbm, 51, rfl⟩
abbrev main_call0_v0 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_3 : Ref sig .tc := ⟨.hbm, 61, rfl⟩
abbrev main_v37 : Ref sig .tc := ⟨.hbm, 62, rfl⟩
abbrev main_v38 : Ref sig .tc := ⟨.hbm, 63, rfl⟩
abbrev main_cst_4 : Ref sig .tc := ⟨.hbm, 64, rfl⟩
abbrev main_v39 : Ref sig .tc := ⟨.hbm, 65, rfl⟩
abbrev main_v40 : Ref sig .tc := ⟨.hbm, 66, rfl⟩
abbrev main_c_5 : Ref sig .tc := ⟨.hbm, 67, rfl⟩
abbrev main_v41 : Ref sig .tc := ⟨.hbm, 68, rfl⟩
abbrev main_v42 : Ref sig .tc := ⟨.hbm, 69, rfl⟩
abbrev main_c_6 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_7 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_call1_cst : Ref sig .tc := ⟨.hbm, 84, rfl⟩
abbrev main_call1_v0 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_8 : Ref sig .tc := ⟨.hbm, 94, rfl⟩
abbrev main_v63 : Ref sig .tc := ⟨.hbm, 95, rfl⟩
abbrev main_v64 : Ref sig .tc := ⟨.hbm, 96, rfl⟩
abbrev main_cst_9 : Ref sig .tc := ⟨.hbm, 97, rfl⟩
abbrev main_v65 : Ref sig .tc := ⟨.hbm, 98, rfl⟩
abbrev main_v66 : Ref sig .tc := ⟨.hbm, 99, rfl⟩
abbrev main_c_10 : Ref sig .tc := ⟨.hbm, 100, rfl⟩
abbrev main_v67 : Ref sig .tc := ⟨.hbm, 101, rfl⟩
abbrev main_v68 : Ref sig .tc := ⟨.hbm, 102, rfl⟩
abbrev main_c_11 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_12 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_call2_cst : Ref sig .tc := ⟨.hbm, 117, rfl⟩
abbrev main_call2_v0 : Ref sig .tc := ⟨.hbm, 118, rfl⟩
abbrev main_v81 : Ref sig .tc := ⟨.hbm, 119, rfl⟩
abbrev main_cst_13 : Ref sig .tc := ⟨.hbm, 120, rfl⟩
abbrev main_v82 : Ref sig .tc := ⟨.hbm, 121, rfl⟩
abbrev main_v83 : Ref sig .tc := ⟨.hbm, 122, rfl⟩
abbrev main_cst_14 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S1x128 : S_.BroadcastsInDim S1x128 (![] : Fin 0 → Fin S1x128.rank)
  bcast_S1_S1x1_1 : S1.BroadcastsInDim S1x1 (![1] : Fin 1 → Fin S1x1.rank)
  dot_S50000x128_S128x128_S50000x128_1_0_0_1_n_n_wf : DotDims.WF S50000x128 S128x128 S50000x128 [1] [0] [0] [1] [] []
  dot_S800000x1_S1x128_S800000x128_1_0_0_1_n_n_wf : DotDims.WF S800000x1 S1x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S1x128_S128x1_S1x1_1_0_0_1_n_n_wf : DotDims.WF S1x128 S128x1 S1x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x1_S1x128_S800000x128_1_0_0_1_n_n : DotDims S800000x1 S1x128 S800000x128 where
  lhsContracting := [1]
  rhsContracting := [0]
  lhsNonContracting := [0]
  rhsNonContracting := [1]
  lhsBatch := []
  rhsBatch := []
  wf := dot_S800000x1_S1x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1x128_S128x1_S1x1_1_0_0_1_n_n : DotDims S1x128 S128x1 S1x1 where
  lhsContracting := [1]
  rhsContracting := [0]
  lhsNonContracting := [0]
  rhsNonContracting := [1]
  lhsBatch := []
  rhsBatch := []
  wf := dot_S1x128_S128x1_S1x1_1_0_0_1_n_n_wf

class Facts : Prop extends Facts₀ where

variable [Facts]
-- ==== Proof.Net.lean ====
/-
  The network both programs compute, as five layers over whole arrays.

  Nodes n < 50000 carry feature rows of width 128; edges e < 800000 carry a source node, a destination node and one
  scalar attribute. One message-passing layer takes node features h and produces

      agg (lin (h) W) = the array whose row n is the sum, over the edges e with destination n, of
                         (h · W)[src e, ·] * gate[e, ·],      gate[e, j] = 1 / (1 + exp (-(attr e * eW j + eb j)))

  and the next layer is fed `act` of it: the bias added to every row, then the maximum with zero. After three layers the
  rows are summed over all nodes (`pool`), and `head` divides by the number of nodes, multiplies by the output column and
  adds the output bias.

  `lin` is a product of a 50000 x 128 array with a 128 x 128 matrix: at the extended reals each entry is a sum of 128
  products. `agg` is the gather, the gate, the product and the scatter-add; nothing below looks inside it, because both
  programs apply the very same operations to their node features: it is carried as one function of the features.
  Negative source indices are counted from the end (the `select`), as the indexing operation does on both sides.
-/
import proofs.«429124_j15865609191626_3_alg».proof.Proof.Gen.ReferenceIdeal

noncomputable section

namespace Cert.Net

open Cert.ReferenceIdeal Cert.ReferenceIdeal.Gen Idealize.ShloMosaic Idealize.ShloMosaic.TcCoe

variable {F : FTy → Type} [FloatOps F]

/-- Node features times a weight matrix: entry (n, j) is the sum over k of h[n, k] * W[k, j]. -/
def lin (h : (⟨S50000x128, .f32⟩ : BufTy).Contents (Elt F)) (W : (⟨S128x128, .f32⟩ : BufTy).Contents (Elt F)) :
    (⟨S50000x128, .f32⟩ : BufTy).Contents (Elt F) :=
  Host.dotGeneral dot_S50000x128_S128x128_S50000x128_1_0_0_1_n_n none h W

/-- The source node of every edge, a negative index counted from the end. -/
def src (ei : (⟨S2x800000, .i32⟩ : BufTy).Contents (Elt F)) : (⟨S800000x1, .i32⟩ : BufTy).Contents (Elt F) :=
  broadcastInDim S800000x1 ![0] bcast_S800000_S800000x1_0 (select (cmpi .slt (shapeCast _ (extractStridedSlice S1x800000 ![0, 0] ei slices_S2x800000_S1x800000_0_0) shapeCasts_S1x800000_S800000) (broadcastInDim S800000 ![] bcast_S_S800000 (constantI S_ 32 0#32))) (addi (shapeCast _ (extractStridedSlice S1x800000 ![0, 0] ei slices_S2x800000_S1x800000_0_0) shapeCasts_S1x800000_S800000) (broadcastInDim S800000 ![] bcast_S_S800000 (constantI S_ 32 50000#32))) (shapeCast _ (extractStridedSlice S1x800000 ![0, 0] ei slices_S2x800000_S1x800000_0_0) shapeCasts_S1x800000_S800000))

/-- The destination node of every edge. -/
def dst (ei : (⟨S2x800000, .i32⟩ : BufTy).Contents (Elt F)) : (⟨S800000x1, .i32⟩ : BufTy).Contents (Elt F) :=
  broadcastInDim S800000x1 ![0] bcast_S800000_S800000x1_0 (shapeCast _ (extractStridedSlice S1x800000 ![1, 0] ei slices_S2x800000_S1x800000_1_0) shapeCasts_S1x800000_S800000)

/-- The gate of every edge and feature: the logistic function of attr * eW + eb. -/
def gate (ea : (⟨S800000x1, .f32⟩ : BufTy).Contents (Elt F)) (eW : (⟨S1x128, .f32⟩ : BufTy).Contents (Elt F))
    (eb : (⟨S128, .f32⟩ : BufTy).Contents (Elt F)) : (⟨S800000x128, .f32⟩ : BufTy).Contents (Elt F) :=
  Host.divf (broadcastInDim S800000x128 ![] bcast_S_S800000x128 (constant S_ .f32 0x3F800000#32)) (addf (broadcastInDim S800000x128 ![] bcast_S_S800000x128 (constant S_ .f32 0x3F800000#32)) (Host.exp (Host.negf (addf (Host.dotGeneral dot_S800000x1_S1x128_S800000x128_1_0_0_1_n_n none ea eW) (broadcastInDim S800000x128 ![0, 1] bcast_S1x128_S800000x128_0_1 (broadcastInDim S1x128 ![1] bcast_S128_S1x128_1 eb))))))

/-- One round of messages: the transformed features xt gathered at each edge's source, gated, and summed into the
    edge's destination row, from an array of zeros. -/
def agg (xt : (⟨S50000x128, .f32⟩ : BufTy).Contents (Elt F)) (ei : (⟨S2x800000, .i32⟩ : BufTy).Contents (Elt F))
    (ea : (⟨S800000x1, .f32⟩ : BufTy).Contents (Elt F)) (eW : (⟨S1x128, .f32⟩ : BufTy).Contents (Elt F))
    (eb : (⟨S128, .f32⟩ : BufTy).Contents (Elt F)) : (⟨S50000x128, .f32⟩ : BufTy).Contents (Elt F) :=
  Host.scatterAdd scatter_S50000x128_S800000x1_S800000x128_1_0_0_1 (broadcastInDim S50000x128 ![] bcast_S_S50000x128 (constant S_ .f32 0x00000000#32)) (dst ei) (mulf (Host.gather gather_S50000x128_S800000x1_S800000x128_1_0_n_n_0_1_1128 xt (src ei)) (gate ea eW eb))

/-- The bias added to every row, then the maximum with zero. -/
def act (a : (⟨S50000x128, .f32⟩ : BufTy).Contents (Elt F)) (b : (⟨S128, .f32⟩ : BufTy).Contents (Elt F)) :
    (⟨S50000x128, .f32⟩ : BufTy).Contents (Elt F) :=
  maximumf (addf a (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- The sum of all rows, as one row: entry (0, j) is zero plus the sum over n of h[n, j]. -/
def pool (h : (⟨S50000x128, .f32⟩ : BufTy).Contents (Elt F)) : (⟨S1x128, .f32⟩ : BufTy).Contents (Elt F) :=
  broadcastInDim S1x128 ![1] bcast_S128_S1x128_1 (Host.reduceAdd h (constant S_ .f32 0x00000000#32) reducesTo_S50000x128_S128_d0 h_S_)

/-- The mean over the 50000 nodes, times the output column, plus the output bias. -/
def head (s : (⟨S1x128, .f32⟩ : BufTy).Contents (Elt F)) (oW : (⟨S128x1, .f32⟩ : BufTy).Contents (Elt F))
    (ob : (⟨S1, .f32⟩ : BufTy).Contents (Elt F)) : (⟨S1x1, .f32⟩ : BufTy).Contents (Elt F) :=
  addf (Host.dotGeneral dot_S1x128_S128x1_S1x1_1_0_0_1_n_n none (Host.divf s (broadcastInDim S1x128 ![] bcast_S_S1x128 (constant S_ .f32 0x47435000#32))) oW) (broadcastInDim S1x1 ![1] bcast_S1_S1x1_1 ob)

end Cert.Net

end
-- ==== Proof.Fold.lean ====
/-
  The kernel program's buffers, read back through its host operations and its four calls.

  The program is a fold: a stretch of host operations, a call, a stretch, a call, ... Each stretch writes new buffers
  from old ones and leaves every other buffer alone; each call writes its one output array and leaves every other buffer
  alone. So a buffer read at some boundary holds what the operation that wrote it computed, from buffers that in turn
  hold what was written earlier, down to the launch contents of the arguments. Read this way, the three stretches between
  the calls are each one round of messages (`Net.agg`) on the preceding call's output, and the last stretch is the
  mean, the output column and the output bias (`Net.head`) on the last call's output row.
-/
import proofs.«429124_j15865609191626_3_alg».proof.Proof.Gen.KernelIdeal.Frame
import proofs.«429124_j15865609191626_3_alg».proof.Proof.Net
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The first call finds the node features and the first weight matrix as launched. -/
theorem in0 (c : Dev nD) : V1 m ρ c main_arg0 = m ((c : Thread nD τ).loc main_arg0) ∧ V1 m ρ c main_arg3 = m ((c : Thread nD τ).loc main_arg3) := by
  constructor
  · show StableHlo.after hostOps0 (W0 m ρ c) (Proc.devRef .tc main_arg0) = _
    after_results_simp
  · show StableHlo.after hostOps0 (W0 m ρ c) (Proc.devRef .tc main_arg3) = _
    after_results_simp

/-- The first call's output array after the call. -/
theorem out0 (c : Dev nD) : W2 m ρ c (Proc.devRef .tc main_v5) = (dat0 (V1 m ρ) c).arrAt 3 cfg0.N :=
  W2_arr m ρ c 3

/-- The second call finds the first round's aggregate, and the first bias and the second matrix as launched. -/
theorem in1 (c : Dev nD) : V3 m ρ c main_v26 = Cert.Net.agg (W2 m ρ c (Proc.devRef .tc main_v5)) (m ((c : Thread nD τ).loc main_arg1)) (m ((c : Thread nD τ).loc main_arg2)) (m ((c : Thread nD τ).loc main_arg5)) (m ((c : Thread nD τ).loc main_arg6))
    ∧ V3 m ρ c main_arg4 = m ((c : Thread nD τ).loc main_arg4) ∧ V3 m ρ c main_arg7 = m ((c : Thread nD τ).loc main_arg7) := by
  refine ⟨?_, ?_, ?_⟩
  · show StableHlo.after hostOps1 (W2 m ρ c) (Proc.devRef .tc main_v26) = _
    after_results_simp
    rw [W2_of_ne m ρ c main_v1 (by decide), W2_of_ne m ρ c main_v3 (by decide), W2_of_ne m ρ c main_arg2 (by decide),
      W2_of_ne m ρ c main_arg5 (by decide), W2_of_ne m ρ c main_arg6 (by decide)]
    dsimp only [W1]
    after_results_simp
    rfl
  · show StableHlo.after hostOps1 (W2 m ρ c) (Proc.devRef .tc main_arg4) = _
    after_results_simp
    rw [W2_of_ne m ρ c main_arg4 (by decide)]
    dsimp only [W1]
    after_results_simp
  · show StableHlo.after hostOps1 (W2 m ρ c) (Proc.devRef .tc main_arg7) = _
    after_results_simp
    rw [W2_of_ne m ρ c main_arg7 (by decide)]
    dsimp only [W1]
    after_results_simp

theorem out1 (c : Dev nD) : W4 m ρ c (Proc.devRef .tc main_v27) = (dat1 (V3 m ρ) c).arrAt 3 cfg1.N :=
  W4_arr m ρ c 3

set_option maxHeartbeats 8000000 in
/-- The third call finds the second round's aggregate, and the second bias and the third matrix as launched. -/
theorem in2 (c : Dev nD) : V5 m ρ c main_v48 = Cert.Net.agg (W4 m ρ c (Proc.devRef .tc main_v27)) (m ((c : Thread nD τ).loc main_arg1)) (m ((c : Thread nD τ).loc main_arg2)) (m ((c : Thread nD τ).loc main_arg9)) (m ((c : Thread nD τ).loc main_arg10))
    ∧ V5 m ρ c main_arg8 = m ((c : Thread nD τ).loc main_arg8) ∧ V5 m ρ c main_arg11 = m ((c : Thread nD τ).loc main_arg11) := by
  refine ⟨?_, ?_, ?_⟩
  · show StableHlo.after hostOps2 (W4 m ρ c) (Proc.devRef .tc main_v48) = _
    after_results_simp
    rw [W4_of_ne m ρ c main_v1 (by decide), W4_of_ne m ρ c main_v3 (by decide), W4_of_ne m ρ c main_arg2 (by decide), W4_of_ne m ρ c main_arg9 (by decide), W4_of_ne m ρ c main_arg10 (by decide)]
    dsimp only [W3]
    after_results_simp
    rw [W2_of_ne m ρ c main_v1 (by decide), W2_of_ne m ρ c main_v3 (by decide), W2_of_ne m ρ c main_arg2 (by decide), W2_of_ne m ρ c main_arg9 (by decide), W2_of_ne m ρ c main_arg10 (by decide)]
    dsimp only [W1]
    after_results_simp
    rfl
  · show StableHlo.after hostOps2 (W4 m ρ c) (Proc.devRef .tc main_arg8) = _
    after_results_simp
    rw [W4_of_ne m ρ c main_arg8 (by decide)]
    dsimp only [W3]
    after_results_simp
    rw [W2_of_ne m ρ c main_arg8 (by decide)]
    dsimp only [W1]
    after_results_simp
  · show StableHlo.after hostOps2 (W4 m ρ c) (Proc.devRef .tc main_arg11) = _
    after_results_simp
    rw [W4_of_ne m ρ c main_arg11 (by decide)]
    dsimp only [W3]
    after_results_simp
    rw [W2_of_ne m ρ c main_arg11 (by decide)]
    dsimp only [W1]
    after_results_simp

theorem out2 (c : Dev nD) : W6 m ρ c (Proc.devRef .tc main_v49) = (dat2 (V5 m ρ) c).arrAt 3 cfg2.N :=
  W6_arr m ρ c 3

set_option maxHeartbeats 16000000 in
/-- The last call finds the third round's aggregate and the third bias as launched. -/
theorem in3 (c : Dev nD) : V7 m ρ c main_v70 = Cert.Net.agg (W6 m ρ c (Proc.devRef .tc main_v49)) (m ((c : Thread nD τ).loc main_arg1)) (m ((c : Thread nD τ).loc main_arg2)) (m ((c : Thread nD τ).loc main_arg13)) (m ((c : Thread nD τ).loc main_arg14))
    ∧ V7 m ρ c main_arg12 = m ((c : Thread nD τ).loc main_arg12) := by
  refine ⟨?_, ?_⟩
  · show StableHlo.after hostOps3 (W6 m ρ c) (Proc.devRef .tc main_v70) = _
    after_results_simp
    rw [W6_of_ne m ρ c main_v1 (by decide), W6_of_ne m ρ c main_v3 (by decide), W6_of_ne m ρ c main_arg2 (by decide), W6_of_ne m ρ c main_arg13 (by decide), W6_of_ne m ρ c main_arg14 (by decide)]
    dsimp only [W5]
    after_results_simp
    rw [W4_of_ne m ρ c main_v1 (by decide), W4_of_ne m ρ c main_v3 (by decide), W4_of_ne m ρ c main_arg2 (by decide), W4_of_ne m ρ c main_arg13 (by decide), W4_of_ne m ρ c main_arg14 (by decide)]
    dsimp only [W3]
    after_results_simp
    rw [W2_of_ne m ρ c main_v1 (by decide), W2_of_ne m ρ c main_v3 (by decide), W2_of_ne m ρ c main_arg2 (by decide), W2_of_ne m ρ c main_arg13 (by decide), W2_of_ne m ρ c main_arg14 (by decide)]
    dsimp only [W1]
    after_results_simp
    rfl
  · show StableHlo.after hostOps3 (W6 m ρ c) (Proc.devRef .tc main_arg12) = _
    after_results_simp
    rw [W6_of_ne m ρ c main_arg12 (by decide)]
    dsimp only [W5]
    after_results_simp
    rw [W4_of_ne m ρ c main_arg12 (by decide)]
    dsimp only [W3]
    after_results_simp
    rw [W2_of_ne m ρ c main_arg12 (by decide)]
    dsimp only [W1]
    after_results_simp

theorem out3 (c : Dev nD) : W8 m ρ c (Proc.devRef .tc main_v71) = (dat3 (V7 m ρ) c).arrAt 2 cfg3.N :=
  W8_arr m ρ c 2

set_option maxHeartbeats 16000000 in
/-- The result buffer: the mean, the output column and the output bias on the last call's output row. -/
theorem result (c : Dev nD) : W9 m ρ c (Proc.devRef .tc main_v76) = Cert.Net.head (W8 m ρ c (Proc.devRef .tc main_v71)) (m ((c : Thread nD τ).loc main_arg15)) (m ((c : Thread nD τ).loc main_arg16)) := by
  show StableHlo.after hostOps4 (W8 m ρ c) (Proc.devRef .tc main_v76) = _
  after_results_simp
  rw [W8_of_ne m ρ c main_arg15 (by decide), W8_of_ne m ρ c main_arg16 (by decide)]
  dsimp only [W7]
  after_results_simp
  rw [W6_of_ne m ρ c main_arg15 (by decide), W6_of_ne m ρ c main_arg16 (by decide)]
  dsimp only [W5]
  after_results_simp
  rw [W4_of_ne m ρ c main_arg15 (by decide), W4_of_ne m ρ c main_arg16 (by decide)]
  dsimp only [W3]
  after_results_simp
  rw [W2_of_ne m ρ c main_arg15 (by decide), W2_of_ne m ρ c main_arg16 (by decide)]
  dsimp only [W1]
  after_results_simp
  rfl

end Cert.KernelIdeal.Fold

end
-- ==== Proof.Region0.lean ====
/-
  The first call: 25 row blocks of 2000 nodes, each block of the result the product of the block with the whole 128 x 128 matrix.
-/
import proofs.«429124_j15865609191626_3_alg».proof.Proof.Gen.KernelIdeal.Frame
import proofs.«429124_j15865609191626_3_alg».proof.Proof.Gen.ReferenceIdeal.Read
import proofs.«429124_j15865609191626_3_alg».proof.Proof.Net
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

open Idealize.ShloMosaic.ValueIdx

/-- The two zero offsets of a whole-block access, as the constant function. -/
theorem hz : (![0, 0] : Fin 2 → Nat) = fun _ => 0 := funext fun a => by fin_cases a <;> rfl

/-! ## The block product at an index

The product of a 2000 x 128 block with the 128 x 128 matrix contracts the block's columns with the matrix's rows:
its left index keeps the row of the result and takes the contracted coordinate as its column, its right index takes
the contracted coordinate as its row and keeps the column of the result. -/

theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (p, q) of the block product into a zero accumulator: the sum over k of a(p, k) * w(k, q). -/
theorem blockProd_apply (a : FVec Ideal S2000x128 .bf16) (w : FVec Ideal S128x128 .bf16) (p : Fin 2000) (q : Fin 128) :
    FloatOps.matmul dot_S2000x128_S128x128_S2000x128_1_0_0_1_n_n none a w (constant S2000x128 .f32 0x00000000#32) (ix2 p q)
      = ∑ k : Fin 128, a (ix2 p k) * w (ix2 k q) := by
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- What the body stores, at entry (p, q): the change of format is the identity on extended reals, so it is the sum
    over k of x0(p, k) * x2(k, q). -/
theorem pay_apply (x0 : Vec Ideal S2000x128 .f32) (x2 : Vec Ideal S128x128 .f32) (p : Fin 2000) (q : Fin 128) :
    k0_pay1 x0 x2 (ix2 p q) = ∑ k : Fin 128, x0 (ix2 p k) * x2 (ix2 k q) := by
  unfold k0_pay1
  exact blockProd_apply _ _ p q

/-! ## The specification at an index -/

/-- Entry (n, q) of the features times the matrix: the sum over k of h(n, k) * W(k, q). -/
theorem lin_apply (h : (⟨Cert.ReferenceIdeal.S50000x128, .f32⟩ : BufTy).Contents (Elt Ideal)) (W : (⟨Cert.ReferenceIdeal.S128x128, .f32⟩ : BufTy).Contents (Elt Ideal))
    (n : Fin 50000) (q : Fin 128) :
    Cert.Net.lin (F := Ideal) h W (ix2 n q) = ∑ k : Fin 128, h (ix2 n k) * W (ix2 k q) := by
  show Cert.ReferenceIdeal.Read.val_main_v4 (F := Ideal) h W (ix2 n q) = _
  rw [Cert.ReferenceIdeal.Read.val_main_v4_apply]
  refine Finset.sum_congr rfl fun k _ => ?_
  have el : Cert.ReferenceIdeal.Read.lidx_main_v4 (ix2 n q) k = ix2 n k := by
    funext a; match a with | ⟨0, _⟩ => rfl | ⟨1, _⟩ => rfl
  have er : Cert.ReferenceIdeal.Read.ridx_main_v4 (ix2 n q) k = ix2 k q := by
    funext a; match a with | ⟨0, _⟩ => rfl | ⟨1, _⟩ => rfl
  rw [el, er]

/-! ## The blocks -/

/-- The index maps over the 25 points: the row-block windows sit at block (t, 0), the matrix at block (0, 0). -/
theorem idx_facts : ∀ t : Fin cfg0.N, win0_0.index t (0 : Fin 2) = t.val ∧ win0_0.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A point of the grid is below 25. -/
theorem point_lt (t : Fin cfg0.N) : t.val < 25 :=
  lt_of_lt_of_eq t.isLt (show cfg0.N = 25 from N_0)

/-- Row p of the block of the features at point t is row 2000 t + p of the features. -/
theorem rows_apply (c : Dev nD) (t : Fin cfg0.N) (p : Fin 2000) (k : Fin 128) :
    (iblk0 V c 0 t : Vec Ideal S2000x128 .f32) (ix2 p k)
      = (V c main_arg0 : S50000x128.Idx → Elt Ideal .f32) (ix2 (⟨t.val * 2000 + p.val, by have := point_lt t; have := p.isLt; omega⟩ : Fin 50000) k) := by
  obtain ⟨e0, e1, -, -, -, -⟩ := idx_facts t
  show (V c main_arg0 : S50000x128.Idx → Elt Ideal .f32) (((cfg0.win 0).blk t).view.emb (ix2 p k)) = _
  refine congrArg (V c main_arg0 : S50000x128.Idx → Elt Ideal .f32) ?_
  funext a; apply Fin.ext
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- The block of the matrix at any point is the matrix. -/
theorem matrix_apply (c : Dev nD) (t : Fin cfg0.N) (k : Fin 128) (q : Fin 128) :
    (iblk0 V c 2 t : Vec Ideal S128x128 .f32) (ix2 k q) = (V c main_arg3 : S128x128.Idx → Elt Ideal .f32) (ix2 k q) := by
  obtain ⟨-, -, e2, e3, -, -⟩ := idx_facts t
  show (V c main_arg3 : S128x128.Idx → Elt Ideal .f32) (((cfg0.win 2).blk t).view.emb (ix2 k q)) = _
  refine congrArg (V c main_arg3 : S128x128.Idx → Elt Ideal .f32) ?_
  funext a; apply Fin.ext
  match a with
  | ⟨0, _⟩ => show win0_2.index t (0 : Fin 2) * 128 + 1 * k.val = k.val; rw [e2]; omega
  | ⟨1, _⟩ => show win0_2.index t (1 : Fin 2) * 128 + 1 * q.val = q.val; rw [e3]; omega

/-- Entry (p, q) of the output's block at point t is entry (2000 t + p, q) of the array. -/
theorem out_emb (t : Fin cfg0.N) (p : Fin 2000) (q : Fin 128) :
    ((cfg0.win 3).blk t).view.emb (ix2 p q) = (ix2 (⟨t.val * 2000 + p.val, by have := point_lt t; have := p.isLt; omega⟩ : Fin 50000) q : S50000x128.Idx) := by
  obtain ⟨-, -, -, -, e4, e5⟩ := idx_facts t
  funext a; apply Fin.ext
  match a with
  | ⟨0, _⟩ => show win0_3.index t (0 : Fin 2) * 2000 + 1 * p.val = t.val * 2000 + p.val; rw [e4]; omega
  | ⟨1, _⟩ => show win0_3.index t (1 : Fin 2) * 128 + 1 * q.val = q.val; rw [e5]; omega

/-- What point t writes back is block t of the product of the features with the matrix. -/
theorem flushed_eq (c : Dev nD) (t : Fin cfg0.N) :
    (dat0 V c).flushed 3 t = ((cfg0.win 3).blk t).view.read (Elt Ideal) (Cert.Net.lin (F := Ideal) (V c main_arg0) (V c main_arg3)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz]
  funext y
  obtain ⟨p, q, rfl⟩ : ∃ (p : Fin 2000) (q : Fin 128), y = ix2 p q := ⟨y 0, y 1, eq_ix2 y⟩
  show k0_pay1 (iblk0 V c 0 t) (iblk0 V c 2 t) (ix2 p q)
    = Cert.Net.lin (F := Ideal) (V c main_arg0) (V c main_arg3) (((cfg0.win 3).blk t).view.emb (ix2 p q))
  refine (pay_apply (iblk0 V c 0 t) (iblk0 V c 2 t) p q).trans ?_
  rw [out_emb t p q, lin_apply]
  refine Finset.sum_congr rfl fun k _ => ?_
  rw [rows_apply V c t p k, matrix_apply V c t k q]

/-- An index of the output array is in point t's block iff each coordinate is in the block's range on its axis. -/
theorem mem_blk (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v5).slice (win0_3.rect t)).set ↔ _
  rw [View.set_slice_whole, Rect.mem_set_unit]
  exact Iff.rfl

/-- Every row lies in the block of the point its number divided by 2000 names, and every point writes back. -/
theorem cover (i : S50000x128.Idx) : ∃ t : Fin cfg0.N, (cfg0.win 3).flush t = true ∧ i ∈ ((cfg0.win 3).blk t).view.set := by
  have h0 : (i 0).val < 50000 := (i 0).isLt
  have h1 : (i 1).val < 128 := (i 1).isLt
  let t : Fin cfg0.N := ⟨(i 0).val / 2000, lt_of_lt_of_eq (show (i 0).val / 2000 < 25 by omega) (show cfg0.N = 25 from N_0).symm⟩
  obtain ⟨-, -, -, -, e4, e5⟩ := idx_facts t
  have e4' : win0_3.index t (0 : Fin 2) = (i 0).val / 2000 := e4
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; rw [e4']; omega
  | ⟨1, _⟩ => show win0_3.index t (1 : Fin 2) * 128 ≤ (i 1).val ∧ (i 1).val < win0_3.index t (1 : Fin 2) * 128 + 128; rw [e5]; omega

/-- After the first call the transformed features are the product of the node features with the weight matrix, whatever
    the buffers held when the call was entered. -/
theorem value (c : Dev nD) :
    (dat0 V c).arrAt 3 cfg0.N = Cert.Net.lin (F := Ideal) (V c main_arg0) (V c main_arg3) := by
  exact (dat0 V c).arrAt_eq_of_cover 3 _ (fun t _ => flushed_eq V c t) cover

end Cert.KernelIdeal.Region0

end
-- ==== Proof.Region1.lean ====
/-
  The second call: each row block gets the bias added and the maximum with zero taken, then is multiplied with the matrix.
-/
import proofs.«429124_j15865609191626_3_alg».proof.Proof.Gen.KernelIdeal.Frame
import proofs.«429124_j15865609191626_3_alg».proof.Proof.Gen.ReferenceIdeal.Read
import proofs.«429124_j15865609191626_3_alg».proof.Proof.Net
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

open Idealize.ShloMosaic.ValueIdx

/-- The two zero offsets of a whole-block access, as the constant function. -/
theorem hz : (![0, 0] : Fin 2 → Nat) = fun _ => 0 := funext fun a => by fin_cases a <;> rfl

/-! ## The block product at an index

The product of a 2000 x 128 block with the 128 x 128 matrix contracts the block's columns with the matrix's rows:
its left index keeps the row of the result and takes the contracted coordinate as its column, its right index takes
the contracted coordinate as its row and keeps the column of the result. -/

theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (p, q) of the block product into a zero accumulator: the sum over k of a(p, k) * w(k, q). -/
theorem blockProd_apply (a : FVec Ideal S2000x128 .bf16) (w : FVec Ideal S128x128 .bf16) (p : Fin 2000) (q : Fin 128) :
    FloatOps.matmul dot_S2000x128_S128x128_S2000x128_1_0_0_1_n_n none a w (constant S2000x128 .f32 0x00000000#32) (ix2 p q)
      = ∑ k : Fin 128, a (ix2 p k) * w (ix2 k q) := by
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The one zero offset of a whole-vector access, as the constant function. -/
theorem hz1 : (![0] : Fin 1 → Nat) = fun _ => 0 := funext fun a => by fin_cases a; rfl

/-- What the body stores, at entry (p, q): the bias row is laid over every row of the block and the change of format is
    the identity on extended reals, so it is the sum over k of max (x0(p, k) + x1(k), 0) * x2(k, q), the zero kept as its word. -/
theorem pay_apply (x0 : Vec Ideal S2000x128 .f32) (x1 : Vec Ideal S128 .f32) (x2 : Vec Ideal S128x128 .f32) (p : Fin 2000) (q : Fin 128) :
    k1_pay1 x0 x1 x2 (ix2 p q) = ∑ k : Fin 128, max (x0 (ix2 p k) + x1 (ix1 k)) (Ideal.ofBits .f32 0x00000000#32) * x2 (ix2 k q) := by
  unfold k1_pay1
  refine (blockProd_apply _ _ p q).trans ?_
  refine Finset.sum_congr rfl fun k _ => ?_
  show max (shapeCast S2000x128 x0 shapeCasts_S2000x128_S2000x128 (ix2 p k)
      + broadcastTo S2000x128 (shapeCast S1x128 x1 shapeCasts_S128_S1x128) broadcasts_S1x128_S2000x128 (ix2 p k))
      (Ideal.ofBits .f32 0x00000000#32) * x2 (ix2 k q) = _
  rw [shapeCast_self, broadcastTo_1b_ab_apply, shapeCast_a_1a_apply]

/-! ## The specification at an index -/

/-- Entry (n, q) of the features times the matrix: the sum over k of h(n, k) * W(k, q). -/
theorem lin_apply (h : (⟨Cert.ReferenceIdeal.S50000x128, .f32⟩ : BufTy).Contents (Elt Ideal)) (W : (⟨Cert.ReferenceIdeal.S128x128, .f32⟩ : BufTy).Contents (Elt Ideal))
    (n : Fin 50000) (q : Fin 128) :
    Cert.Net.lin (F := Ideal) h W (ix2 n q) = ∑ k : Fin 128, h (ix2 n k) * W (ix2 k q) := by
  show Cert.ReferenceIdeal.Read.val_main_v4 (F := Ideal) h W (ix2 n q) = _
  rw [Cert.ReferenceIdeal.Read.val_main_v4_apply]
  refine Finset.sum_congr rfl fun k _ => ?_
  have el : Cert.ReferenceIdeal.Read.lidx_main_v4 (ix2 n q) k = ix2 n k := by
    funext a; match a with | ⟨0, _⟩ => rfl | ⟨1, _⟩ => rfl
  have er : Cert.ReferenceIdeal.Read.ridx_main_v4 (ix2 n q) k = ix2 k q := by
    funext a; match a with | ⟨0, _⟩ => rfl | ⟨1, _⟩ => rfl
  rw [el, er]

/-- Entry (n, k) of the activated features: the bias entry k added to a(n, k), then the maximum with the zero word's value. -/
theorem act_apply (a : (⟨Cert.ReferenceIdeal.S50000x128, .f32⟩ : BufTy).Contents (Elt Ideal)) (b : (⟨Cert.ReferenceIdeal.S128, .f32⟩ : BufTy).Contents (Elt Ideal))
    (n : Fin 50000) (k : Fin 128) :
    Cert.Net.act (F := Ideal) a b (ix2 n k) = max (a (ix2 n k) + b (ix1 k)) (Ideal.ofBits .f32 0x00000000#32) := by
  unfold Cert.Net.act
  show max (a (ix2 n k) + broadcastInDim Cert.ReferenceIdeal.S50000x128 ![0, 1] _
        (broadcastInDim Cert.ReferenceIdeal.S1x128 ![1] _ b) (ix2 n k))
      (broadcastInDim Cert.ReferenceIdeal.S50000x128 ![] _ (constant (F := Ideal) Cert.ReferenceIdeal.S_ .f32 0x00000000#32) (ix2 n k)) = _
  rw [broadcastInDim_apply ![0, 1] _ _ (ix2 n k) (ix2 (0 : Fin 1) k) (fun a => match a with
      | ⟨0, _⟩ => by show 0 = if (1 : Nat) = 1 then 0 else n.val; rw [if_pos rfl]
      | ⟨1, _⟩ => by show k.val = if (128 : Nat) = 1 then 0 else k.val; rw [if_neg (by decide)]),
    broadcastInDim_apply ![1] _ b (ix2 (0 : Fin 1) k) (ix1 k) (fun a => match a with
      | ⟨0, _⟩ => by show k.val = if (128 : Nat) = 1 then 0 else k.val; rw [if_neg (by decide)]),
    broadcastInDim_apply ![] _ _ (ix2 n k) ix0 (fun a => a.elim0)]
  rfl

/-! ## The blocks -/

/-- The index maps over the 25 points: the row-block windows sit at block (t, 0), the bias and the matrix at block 0. -/
theorem idx_facts : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- A point of the grid is below 25. -/
theorem point_lt (t : Fin cfg1.N) : t.val < 25 :=
  lt_of_lt_of_eq t.isLt (show cfg1.N = 25 from N_1)

/-- Row p of the block of the aggregate at point t is row 2000 t + p of the aggregate. -/
theorem rows_apply (c : Dev nD) (t : Fin cfg1.N) (p : Fin 2000) (k : Fin 128) :
    (iblk1 V c 0 t : Vec Ideal S2000x128 .f32) (ix2 p k)
      = (V c main_v26 : S50000x128.Idx → Elt Ideal .f32) (ix2 (⟨t.val * 2000 + p.val, by have := point_lt t; have := p.isLt; omega⟩ : Fin 50000) k) := by
  obtain ⟨e0, e1, -, -, -, -, -⟩ := idx_facts t
  show (V c main_v26 : S50000x128.Idx → Elt Ideal .f32) (((cfg1.win 0).blk t).view.emb (ix2 p k)) = _
  refine congrArg (V c main_v26 : S50000x128.Idx → Elt Ideal .f32) ?_
  funext a; apply Fin.ext
  match a with
  | ⟨0, _⟩ => show win1_0.index t (0 : Fin 2) * 2000 + 1 * p.val = t.val * 2000 + p.val; rw [e0]; omega
  | ⟨1, _⟩ => show win1_0.index t (1 : Fin 2) * 128 + 1 * k.val = k.val; rw [e1]; omega

/-- The block of the bias at any point is the bias. -/
theorem bias_apply (c : Dev nD) (t : Fin cfg1.N) (k : Fin 128) :
    (iblk1 V c 1 t : Vec Ideal S128 .f32) (ix1 k) = (V c main_arg4 : S128.Idx → Elt Ideal .f32) (ix1 k) := by
  obtain ⟨-, -, e, -, -, -, -⟩ := idx_facts t
  show (V c main_arg4 : S128.Idx → Elt Ideal .f32) (((cfg1.win 1).blk t).view.emb (ix1 k)) = _
  refine congrArg (V c main_arg4 : S128.Idx → Elt Ideal .f32) ?_
  funext a; apply Fin.ext
  match a with
  | ⟨0, _⟩ => show win1_1.index t (0 : Fin 1) * 128 + 1 * k.val = k.val; rw [e]; omega

/-- The block of the matrix at any point is the matrix. -/
theorem matrix_apply (c : Dev nD) (t : Fin cfg1.N) (k : Fin 128) (q : Fin 128) :
    (iblk1 V c 2 t : Vec Ideal S128x128 .f32) (ix2 k q) = (V c main_arg7 : S128x128.Idx → Elt Ideal .f32) (ix2 k q) := by
  obtain ⟨-, -, -, e2, e3, -, -⟩ := idx_facts t
  show (V c main_arg7 : S128x128.Idx → Elt Ideal .f32) (((cfg1.win 2).blk t).view.emb (ix2 k q)) = _
  refine congrArg (V c main_arg7 : S128x128.Idx → Elt Ideal .f32) ?_
  funext a; apply Fin.ext
  match a with
  | ⟨0, _⟩ => show win1_2.index t (0 : Fin 2) * 128 + 1 * k.val = k.val; rw [e2]; omega
  | ⟨1, _⟩ => show win1_2.index t (1 : Fin 2) * 128 + 1 * q.val = q.val; rw [e3]; omega

/-- Entry (p, q) of the output's block at point t is entry (2000 t + p, q) of the array. -/
theorem out_emb (t : Fin cfg1.N) (p : Fin 2000) (q : Fin 128) :
    ((cfg1.win 3).blk t).view.emb (ix2 p q) = (ix2 (⟨t.val * 2000 + p.val, by have := point_lt t; have := p.isLt; omega⟩ : Fin 50000) q : S50000x128.Idx) := by
  obtain ⟨-, -, -, -, -, e4, e5⟩ := idx_facts t
  funext a; apply Fin.ext
  match a with
  | ⟨0, _⟩ => show win1_3.index t (0 : Fin 2) * 2000 + 1 * p.val = t.val * 2000 + p.val; rw [e4]; omega
  | ⟨1, _⟩ => show win1_3.index t (1 : Fin 2) * 128 + 1 * q.val = q.val; rw [e5]; omega

/-- What point t writes back is block t of the product of the activated aggregate with the matrix: a row of the product
    depends only on that row of the left factor, and the activation acts entry by entry. -/
theorem flushed_eq (c : Dev nD) (t : Fin cfg1.N) :
    (dat1 V c).flushed 3 t = ((cfg1.win 3).blk t).view.read (Elt Ideal)
      (Cert.Net.lin (F := Ideal) (Cert.Net.act (V c main_v26) (V c main_arg4)) (V c main_arg7)) := by
  show (cfg1.win 3).cut (grid1.coords t) ((dat1 V c).after 3 t) = _
  rw [after1_3]
  unfold out1_3
  rw [View.canon_unit_zero hz]
  simp only [View.ld_unit_zero (S := S2000x128) hz, View.ld_unit_zero (S := S128) hz1, View.ld_unit_zero (S := S128x128) hz]
  funext y
  obtain ⟨p, q, rfl⟩ : ∃ (p : Fin 2000) (q : Fin 128), y = ix2 p q := ⟨y 0, y 1, eq_ix2 y⟩
  show k1_pay1 (iblk1 V c 0 t) (iblk1 V c 1 t) (iblk1 V c 2 t) (ix2 p q)
    = Cert.Net.lin (F := Ideal) (Cert.Net.act (V c main_v26) (V c main_arg4)) (V c main_arg7) (((cfg1.win 3).blk t).view.emb (ix2 p q))
  refine (pay_apply (iblk1 V c 0 t) (iblk1 V c 1 t) (iblk1 V c 2 t) p q).trans ?_
  rw [out_emb t p q, lin_apply]
  refine Finset.sum_congr rfl fun k _ => ?_
  rw [act_apply, rows_apply V c t p k, bias_apply V c t k, matrix_apply V c t k q]

/-- An index of the output array is in point t's block iff each coordinate is in the block's range on its axis. -/
theorem mem_blk (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v27).slice (win1_3.rect t)).set ↔ _
  rw [View.set_slice_whole, Rect.mem_set_unit]
  exact Iff.rfl

/-- Every row lies in the block of the point its number divided by 2000 names, and every point writes back. -/
theorem cover (i : S50000x128.Idx) : ∃ t : Fin cfg1.N, (cfg1.win 3).flush t = true ∧ i ∈ ((cfg1.win 3).blk t).view.set := by
  have h0 : (i 0).val < 50000 := (i 0).isLt
  have h1 : (i 1).val < 128 := (i 1).isLt
  let t : Fin cfg1.N := ⟨(i 0).val / 2000, lt_of_lt_of_eq (show (i 0).val / 2000 < 25 by omega) (show cfg1.N = 25 from N_1).symm⟩
  obtain ⟨-, -, -, -, -, e4, e5⟩ := idx_facts t
  have e4' : win1_3.index t (0 : Fin 2) = (i 0).val / 2000 := e4
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; rw [e4']; omega
  | ⟨1, _⟩ => show win1_3.index t (1 : Fin 2) * 128 ≤ (i 1).val ∧ (i 1).val < win1_3.index t (1 : Fin 2) * 128 + 128; rw [e5]; omega

/-- After the second call the transformed features are the product of the activated aggregate with the weight matrix. -/
theorem value (c : Dev nD) :
    (dat1 V c).arrAt 3 cfg1.N = Cert.Net.lin (F := Ideal) (Cert.Net.act (V c main_v26) (V c main_arg4)) (V c main_arg7) := by
  exact (dat1 V c).arrAt_eq_of_cover 3 _ (fun t _ => flushed_eq V c t) cover

end Cert.KernelIdeal.Region1

end
-- ==== Proof.Region2.lean ====
/-
  The third call: each row block gets the bias added and the maximum with zero taken, then is multiplied with the matrix.
-/
import proofs.«429124_j15865609191626_3_alg».proof.Proof.Gen.KernelIdeal.Frame
import proofs.«429124_j15865609191626_3_alg».proof.Proof.Gen.ReferenceIdeal.Read
import proofs.«429124_j15865609191626_3_alg».proof.Proof.Net
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

open Idealize.ShloMosaic.ValueIdx

/-- The two zero offsets of a whole-block access, as the constant function. -/
theorem hz : (![0, 0] : Fin 2 → Nat) = fun _ => 0 := funext fun a => by fin_cases a <;> rfl

/-! ## The block product at an index

The product of a 2000 x 128 block with the 128 x 128 matrix contracts the block's columns with the matrix's rows:
its left index keeps the row of the result and takes the contracted coordinate as its column, its right index takes
the contracted coordinate as its row and keeps the column of the result. -/

theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (p, q) of the block product into a zero accumulator: the sum over k of a(p, k) * w(k, q). -/
theorem blockProd_apply (a : FVec Ideal S2000x128 .bf16) (w : FVec Ideal S128x128 .bf16) (p : Fin 2000) (q : Fin 128) :
    FloatOps.matmul dot_S2000x128_S128x128_S2000x128_1_0_0_1_n_n none a w (constant S2000x128 .f32 0x00000000#32) (ix2 p q)
      = ∑ k : Fin 128, a (ix2 p k) * w (ix2 k q) := by
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The one zero offset of a whole-vector access, as the constant function. -/
theorem hz1 : (![0] : Fin 1 → Nat) = fun _ => 0 := funext fun a => by fin_cases a; rfl

/-- What the body stores, at entry (p, q): the bias row is laid over every row of the block and the change of format is
    the identity on extended reals, so it is the sum over k of max (x0(p, k) + x1(k), 0) * x2(k, q), the zero kept as its word. -/
theorem pay_apply (x0 : Vec Ideal S2000x128 .f32) (x1 : Vec Ideal S128 .f32) (x2 : Vec Ideal S128x128 .f32) (p : Fin 2000) (q : Fin 128) :
    k2_pay1 x0 x1 x2 (ix2 p q) = ∑ k : Fin 128, max (x0 (ix2 p k) + x1 (ix1 k)) (Ideal.ofBits .f32 0x00000000#32) * x2 (ix2 k q) := by
  unfold k2_pay1
  refine (blockProd_apply _ _ p q).trans ?_
  refine Finset.sum_congr rfl fun k _ => ?_
  show max (shapeCast S2000x128 x0 shapeCasts_S2000x128_S2000x128 (ix2 p k)
      + broadcastTo S2000x128 (shapeCast S1x128 x1 shapeCasts_S128_S1x128) broadcasts_S1x128_S2000x128 (ix2 p k))
      (Ideal.ofBits .f32 0x00000000#32) * x2 (ix2 k q) = _
  rw [shapeCast_self, broadcastTo_1b_ab_apply, shapeCast_a_1a_apply]

/-! ## The specification at an index -/

/-- Entry (n, q) of the features times the matrix: the sum over k of h(n, k) * W(k, q). -/
theorem lin_apply (h : (⟨Cert.ReferenceIdeal.S50000x128, .f32⟩ : BufTy).Contents (Elt Ideal)) (W : (⟨Cert.ReferenceIdeal.S128x128, .f32⟩ : BufTy).Contents (Elt Ideal))
    (n : Fin 50000) (q : Fin 128) :
    Cert.Net.lin (F := Ideal) h W (ix2 n q) = ∑ k : Fin 128, h (ix2 n k) * W (ix2 k q) := by
  show Cert.ReferenceIdeal.Read.val_main_v4 (F := Ideal) h W (ix2 n q) = _
  rw [Cert.ReferenceIdeal.Read.val_main_v4_apply]
  refine Finset.sum_congr rfl fun k _ => ?_
  have el : Cert.ReferenceIdeal.Read.lidx_main_v4 (ix2 n q) k = ix2 n k := by
    funext a; match a with | ⟨0, _⟩ => rfl | ⟨1, _⟩ => rfl
  have er : Cert.ReferenceIdeal.Read.ridx_main_v4 (ix2 n q) k = ix2 k q := by
    funext a; match a with | ⟨0, _⟩ => rfl | ⟨1, _⟩ => rfl
  rw [el, er]

/-- Entry (n, k) of the activated features: the bias entry k added to a(n, k), then the maximum with the zero word's value. -/
theorem act_apply (a : (⟨Cert.ReferenceIdeal.S50000x128, .f32⟩ : BufTy).Contents (Elt Ideal)) (b : (⟨Cert.ReferenceIdeal.S128, .f32⟩ : BufTy).Contents (Elt Ideal))
    (n : Fin 50000) (k : Fin 128) :
    Cert.Net.act (F := Ideal) a b (ix2 n k) = max (a (ix2 n k) + b (ix1 k)) (Ideal.ofBits .f32 0x00000000#32) := by
  unfold Cert.Net.act
  show max (a (ix2 n k) + broadcastInDim Cert.ReferenceIdeal.S50000x128 ![0, 1] _
        (broadcastInDim Cert.ReferenceIdeal.S1x128 ![1] _ b) (ix2 n k))
      (broadcastInDim Cert.ReferenceIdeal.S50000x128 ![] _ (constant (F := Ideal) Cert.ReferenceIdeal.S_ .f32 0x00000000#32) (ix2 n k)) = _
  rw [broadcastInDim_apply ![0, 1] _ _ (ix2 n k) (ix2 (0 : Fin 1) k) (fun a => match a with
      | ⟨0, _⟩ => by show 0 = if (1 : Nat) = 1 then 0 else n.val; rw [if_pos rfl]
      | ⟨1, _⟩ => by show k.val = if (128 : Nat) = 1 then 0 else k.val; rw [if_neg (by decide)]),
    broadcastInDim_apply ![1] _ b (ix2 (0 : Fin 1) k) (ix1 k) (fun a => match a with
      | ⟨0, _⟩ => by show k.val = if (128 : Nat) = 1 then 0 else k.val; rw [if_neg (by decide)]),
    broadcastInDim_apply ![] _ _ (ix2 n k) ix0 (fun a => a.elim0)]
  rfl

/-! ## The blocks -/

/-- The index maps over the 25 points: the row-block windows sit at block (t, 0), the bias and the matrix at block 0. -/
theorem idx_facts : ∀ t : Fin cfg2.N, win2_0.index t (0 : Fin 2) = t.val ∧ win2_0.index t (1 : Fin 2) = 0
    ∧ win2_1.index t (0 : Fin 1) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- A point of the grid is below 25. -/
theorem point_lt (t : Fin cfg2.N) : t.val < 25 :=
  lt_of_lt_of_eq t.isLt (show cfg2.N = 25 from N_2)

/-- Row p of the block of the aggregate at point t is row 2000 t + p of the aggregate. -/
theorem rows_apply (c : Dev nD) (t : Fin cfg2.N) (p : Fin 2000) (k : Fin 128) :
    (iblk2 V c 0 t : Vec Ideal S2000x128 .f32) (ix2 p k)
      = (V c main_v48 : S50000x128.Idx → Elt Ideal .f32) (ix2 (⟨t.val * 2000 + p.val, by have := point_lt t; have := p.isLt; omega⟩ : Fin 50000) k) := by
  obtain ⟨e0, e1, -, -, -, -, -⟩ := idx_facts t
  show (V c main_v48 : S50000x128.Idx → Elt Ideal .f32) (((cfg2.win 0).blk t).view.emb (ix2 p k)) = _
  refine congrArg (V c main_v48 : S50000x128.Idx → Elt Ideal .f32) ?_
  funext a; apply Fin.ext
  match a with
  | ⟨0, _⟩ => show win2_0.index t (0 : Fin 2) * 2000 + 1 * p.val = t.val * 2000 + p.val; rw [e0]; omega
  | ⟨1, _⟩ => show win2_0.index t (1 : Fin 2) * 128 + 1 * k.val = k.val; rw [e1]; omega

/-- The block of the bias at any point is the bias. -/
theorem bias_apply (c : Dev nD) (t : Fin cfg2.N) (k : Fin 128) :
    (iblk2 V c 1 t : Vec Ideal S128 .f32) (ix1 k) = (V c main_arg8 : S128.Idx → Elt Ideal .f32) (ix1 k) := by
  obtain ⟨-, -, e, -, -, -, -⟩ := idx_facts t
  show (V c main_arg8 : S128.Idx → Elt Ideal .f32) (((cfg2.win 1).blk t).view.emb (ix1 k)) = _
  refine congrArg (V c main_arg8 : S128.Idx → Elt Ideal .f32) ?_
  funext a; apply Fin.ext
  match a with
  | ⟨0, _⟩ => show win2_1.index t (0 : Fin 1) * 128 + 1 * k.val = k.val; rw [e]; omega

/-- The block of the matrix at any point is the matrix. -/
theorem matrix_apply (c : Dev nD) (t : Fin cfg2.N) (k : Fin 128) (q : Fin 128) :
    (iblk2 V c 2 t : Vec Ideal S128x128 .f32) (ix2 k q) = (V c main_arg11 : S128x128.Idx → Elt Ideal .f32) (ix2 k q) := by
  obtain ⟨-, -, -, e2, e3, -, -⟩ := idx_facts t
  show (V c main_arg11 : S128x128.Idx → Elt Ideal .f32) (((cfg2.win 2).blk t).view.emb (ix2 k q)) = _
  refine congrArg (V c main_arg11 : S128x128.Idx → Elt Ideal .f32) ?_
  funext a; apply Fin.ext
  match a with
  | ⟨0, _⟩ => show win2_2.index t (0 : Fin 2) * 128 + 1 * k.val = k.val; rw [e2]; omega
  | ⟨1, _⟩ => show win2_2.index t (1 : Fin 2) * 128 + 1 * q.val = q.val; rw [e3]; omega

/-- Entry (p, q) of the output's block at point t is entry (2000 t + p, q) of the array. -/
theorem out_emb (t : Fin cfg2.N) (p : Fin 2000) (q : Fin 128) :
    ((cfg2.win 3).blk t).view.emb (ix2 p q) = (ix2 (⟨t.val * 2000 + p.val, by have := point_lt t; have := p.isLt; omega⟩ : Fin 50000) q : S50000x128.Idx) := by
  obtain ⟨-, -, -, -, -, e4, e5⟩ := idx_facts t
  funext a; apply Fin.ext
  match a with
  | ⟨0, _⟩ => show win2_3.index t (0 : Fin 2) * 2000 + 1 * p.val = t.val * 2000 + p.val; rw [e4]; omega
  | ⟨1, _⟩ => show win2_3.index t (1 : Fin 2) * 128 + 1 * q.val = q.val; rw [e5]; omega

/-- What point t writes back is block t of the product of the activated aggregate with the matrix: a row of the product
    depends only on that row of the left factor, and the activation acts entry by entry. -/
theorem flushed_eq (c : Dev nD) (t : Fin cfg2.N) :
    (dat2 V c).flushed 3 t = ((cfg2.win 3).blk t).view.read (Elt Ideal)
      (Cert.Net.lin (F := Ideal) (Cert.Net.act (V c main_v48) (V c main_arg8)) (V c main_arg11)) := by
  show (cfg2.win 3).cut (grid2.coords t) ((dat2 V c).after 3 t) = _
  rw [after2_3]
  unfold out2_3
  rw [View.canon_unit_zero hz]
  simp only [View.ld_unit_zero (S := S2000x128) hz, View.ld_unit_zero (S := S128) hz1, View.ld_unit_zero (S := S128x128) hz]
  funext y
  obtain ⟨p, q, rfl⟩ : ∃ (p : Fin 2000) (q : Fin 128), y = ix2 p q := ⟨y 0, y 1, eq_ix2 y⟩
  show k2_pay1 (iblk2 V c 0 t) (iblk2 V c 1 t) (iblk2 V c 2 t) (ix2 p q)
    = Cert.Net.lin (F := Ideal) (Cert.Net.act (V c main_v48) (V c main_arg8)) (V c main_arg11) (((cfg2.win 3).blk t).view.emb (ix2 p q))
  refine (pay_apply (iblk2 V c 0 t) (iblk2 V c 1 t) (iblk2 V c 2 t) p q).trans ?_
  rw [out_emb t p q, lin_apply]
  refine Finset.sum_congr rfl fun k _ => ?_
  rw [act_apply, rows_apply V c t p k, bias_apply V c t k, matrix_apply V c t k q]

/-- An index of the output array is in point t's block iff each coordinate is in the block's range on its axis. -/
theorem mem_blk (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v49).slice (win2_3.rect t)).set ↔ _
  rw [View.set_slice_whole, Rect.mem_set_unit]
  exact Iff.rfl

/-- Every row lies in the block of the point its number divided by 2000 names, and every point writes back. -/
theorem cover (i : S50000x128.Idx) : ∃ t : Fin cfg2.N, (cfg2.win 3).flush t = true ∧ i ∈ ((cfg2.win 3).blk t).view.set := by
  have h0 : (i 0).val < 50000 := (i 0).isLt
  have h1 : (i 1).val < 128 := (i 1).isLt
  let t : Fin cfg2.N := ⟨(i 0).val / 2000, lt_of_lt_of_eq (show (i 0).val / 2000 < 25 by omega) (show cfg2.N = 25 from N_2).symm⟩
  obtain ⟨-, -, -, -, -, e4, e5⟩ := idx_facts t
  have e4' : win2_3.index t (0 : Fin 2) = (i 0).val / 2000 := e4
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; rw [e4']; omega
  | ⟨1, _⟩ => show win2_3.index t (1 : Fin 2) * 128 ≤ (i 1).val ∧ (i 1).val < win2_3.index t (1 : Fin 2) * 128 + 128; rw [e5]; omega

/-- After the third call the transformed features are the product of the activated aggregate with the weight matrix. -/
theorem value (c : Dev nD) :
    (dat2 V c).arrAt 3 cfg2.N = Cert.Net.lin (F := Ideal) (Cert.Net.act (V c main_v48) (V c main_arg8)) (V c main_arg11) := by
  exact (dat2 V c).arrAt_eq_of_cover 3 _ (fun t _ => flushed_eq V c t) cover

end Cert.KernelIdeal.Region2

end
-- ==== Proof.Region3.lean ====
/-
  The last call: one output row accumulated over the 25 row blocks, reset at the first, written back after the last.
-/
import proofs.«429124_j15865609191626_3_alg».proof.Proof.Gen.KernelIdeal.Frame
import proofs.«429124_j15865609191626_3_alg».proof.Proof.Gen.ReferenceIdeal.Read
import proofs.«429124_j15865609191626_3_alg».proof.Proof.Net
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

open Idealize.ShloMosaic Idealize.ShloMosaic.TcCoe Idealize.SL.Sem
open Idealize.ShloMosaic.Pipeline (Dat)

namespace Cert.KernelIdeal.Region3

open Cert.KernelIdeal Cert.KernelIdeal.Gen

variable (V : (c : Dev nD) → (b : Ref sig .tc) → Buf (Elt Ideal) ((c : Thread nD τ).loc b))

/-! ## What one point leaves in the output row's buffer

Every load and store of the body is through the whole of its buffer (all offsets zero), so a load reads the buffer's
contents and the last store's payload is what the buffer ends holding. -/

theorem hz2 : (![0, 0] : Fin 2 → Nat) = fun _ => 0 := funext fun a => by fin_cases a <;> rfl
theorem hz1 : (![0] : Fin 1 → Nat) = fun _ => 0 := funext fun a => by fin_cases a; rfl

/-- Points 1 to 24: over a row holding `xo` the body leaves the accumulation payload of the block `x0`, the bias
    `x1` and `xo`. -/
theorem out_B (c : Dev nD) (i : grid3.Coords) (a1 : Memref sig .tc .vmem S2000x128 .f32) (h1 : a1.IsWhole)
    (a2 : Memref sig .tc .vmem S128 .f32) (h2 : a2.IsWhole) (a3 : Memref sig .tc .vmem S1x128 .f32) (h3 : a3.IsWhole)
    (hc : ¬cond3_0 i) (x0 : Vec Ideal S2000x128 .f32) (x1 : Vec Ideal S128 .f32) (xo : Vec Ideal S1x128 .f32) :
    out3_B_2 (F := Ideal) c i a1 h1 a2 h2 a3 h3 hc x0 x1 xo = k3_pay2 x0 x1 xo := by
  unfold out3_B_2
  rw [View.read_writes_eq_canon _ _ _ (cover3_B_2 c i a1 h1 a2 h2 a3 h3 hc x0 x1 xo)]
  unfold kernelRun3_B
  dsimp only
  rw [View.canon_unit_zero hz2]
  simp only [View.readAt_eq_ld, h1.read_unread, h2.read_unread, h3.read_unread, View.ld_unit_zero (S := S2000x128) hz2,
    View.ld_unit_zero (S := S128) hz1, View.ld_unit_zero (S := S1x128) hz2]

/-- Point 0: the body first stores the zero row, reads it back, and leaves the same payload over that zero row. -/
theorem out_A (c : Dev nD) (i : grid3.Coords) (a1 : Memref sig .tc .vmem S2000x128 .f32) (h1 : a1.IsWhole)
    (a2 : Memref sig .tc .vmem S128 .f32) (h2 : a2.IsWhole) (a3 : Memref sig .tc .vmem S1x128 .f32) (h3 : a3.IsWhole)
    (hc : cond3_0 i) (x0 : Vec Ideal S2000x128 .f32) (x1 : Vec Ideal S128 .f32) :
    out3_A_2 (F := Ideal) c i a1 h1 a2 h2 a3 h3 hc x0 x1 = k3_pay2 x0 x1 (k3_pay1 (F := Ideal)) := by
  unfold out3_A_2
  rw [View.read_writes_eq_canon _ _ _ (cover3_A_2 c i a1 h1 a2 h2 a3 h3 hc x0 x1)]
  unfold kernelRun3_A
  dsimp only
  sl_unfold_words
  rw [View.canon_cons_unit_zero (S := S1x128) hz2, View.readCov_unit_zero (S := S1x128) _ hz2]
  simp only [View.readAt_eq_ld, h1.read_unread, h2.read_unread, View.ld_unit_zero (S := S2000x128) hz2,
    View.ld_unit_zero (S := S128) hz1]

/-! ## The payload at a column

Entry (0, q) of the payload is the old entry plus the sum, over the block's 2000 rows r, of
max (x0[r, q] + x1[q]) 0: the reduction along the rows is a finite sum, the bias row is broadcast over the rows, and the
changes of shape only rename indices. -/

open Idealize.ShloMosaic.ValueIdx in
theorem pay2_apply (x0 : Vec Ideal S2000x128 .f32) (x1 : Vec Ideal S128 .f32) (xo : Vec Ideal S1x128 .f32)
    (u : Fin 1) (q : Fin 128) :
    k3_pay2 x0 x1 xo (ix2 u q)
      = xo (ix2 u q) + ∑ r : Fin 2000, max (x0 (ix2 r q) + x1 (ix1 q)) (Ideal.ofBits .f32 0x00000000#32) := by
  unfold k3_pay2
  simp only [shapeCast_self]
  refine (addf_apply _ _ _).trans ?_
  refine congrArg (xo (ix2 u q) + ·) ?_
  refine (shapeCast_a_1a_apply _ _ u q).trans ?_
  refine (Ideal.multiReduction_add_single _ _ reduces_S2000x128_S128 _ _ (ix1 q)).trans ?_
  refine Finset.sum_congr rfl fun r _ => ?_
  have e : reduces_S2000x128_S128.lift (ix1 q) r = ix2 r q :=
    funext fun a => Fin.ext (by match a with | ⟨0, _⟩ => rfl | ⟨1, _⟩ => rfl)
  rw [e]
  refine (maximumf_apply _ _ _).trans ?_
  refine congrArg (max · _) ?_
  refine (addf_apply _ _ _).trans ?_
  refine congrArg (x0 (ix2 r q) + ·) ?_
  refine (broadcastTo_1b_ab_apply _ _ r q).trans ?_
  exact shapeCast_a_1a_apply _ _ 0 q

/-! ## The windows' blocks

Block t of the input array is its rows 2000 t to 2000 t + 1999, all 128 columns; the bias and the output row have one
block each, at index 0 whatever the point. -/

theorem idx3_0 : ∀ t : Fin cfg3.N, win3_0.index t (0 : Fin 2) = t.val ∧ win3_0.index t (1 : Fin 2) = 0 :=
  (by decide +kernel : ∀ t : Fin grid3.N, win3_0.index t (0 : Fin 2) = t.val ∧ win3_0.index t (1 : Fin 2) = 0)

theorem idx3_1 : ∀ t : Fin cfg3.N, win3_1.index t (0 : Fin 1) = 0 :=
  (by decide +kernel : ∀ t : Fin grid3.N, win3_1.index t (0 : Fin 1) = 0)

theorem idx3_2 : ∀ t : Fin cfg3.N, win3_2.index t (0 : Fin 2) = 0 ∧ win3_2.index t (1 : Fin 2) = 0 :=
  (by decide +kernel : ∀ t : Fin grid3.N, win3_2.index t (0 : Fin 2) = 0 ∧ win3_2.index t (1 : Fin 2) = 0)

open Idealize.ShloMosaic.ValueIdx in
/-- Entry (r, q) of the input's block t is entry (2000 t + r, q) of the array. -/
theorem iblk0_apply (c : Dev nD) (t : Fin cfg3.N) (r : Fin 2000) (q : Fin 128)
    (hr : 2000 * t.val + r.val < 50000) :
    (iblk3 V c 0 t : Vec Ideal S2000x128 .f32) (ix2 r q)
      = (V c main_v70 : Vec Ideal S50000x128 .f32) (ix2 ⟨2000 * t.val + r.val, hr⟩ q) := by
  unfold iblk3
  rw [View.read_apply]
  show V c main_v70 _ = V c main_v70 _
  congr 1
  funext a
  apply Fin.ext
  match a with
  | ⟨0, _⟩ => show win3_0.index t 0 * 2000 + 1 * r.val = 2000 * t.val + r.val; rw [(idx3_0 t).1]; omega
  | ⟨1, _⟩ => show win3_0.index t 1 * 128 + 1 * q.val = q.val; rw [(idx3_0 t).2]; omega

open Idealize.ShloMosaic.ValueIdx in
/-- The bias's block at any point is the bias. -/
theorem iblk1_apply (c : Dev nD) (t : Fin cfg3.N) (q : Fin 128) :
    (iblk3 V c 1 t : Vec Ideal S128 .f32) (ix1 q) = (V c main_arg12 : Vec Ideal S128 .f32) (ix1 q) := by
  unfold iblk3
  rw [View.read_apply]
  show V c main_arg12 _ = V c main_arg12 _
  congr 1
  funext a
  apply Fin.ext
  match a with
  | ⟨0, _⟩ => show win3_1.index t 0 * 128 + 1 * q.val = q.val; rw [idx3_1 t]; omega

/-! ## The running sum

In column q, after point n the row holds the zero word's value plus the block sums of blocks 0 to n. -/

/-- The zero word's value. -/
abbrev Z : EReal := Ideal.ofBits .f32 0x00000000#32

open Idealize.ShloMosaic.ValueIdx in
/-- Node m's activated entry in column q: max (X[m, q] + b[q]) 0 (and 0 past the last node, which no block reaches). -/
def term (X : Vec Ideal S50000x128 .f32) (b : Vec Ideal S128 .f32) (q : Fin 128) (m : ℕ) : EReal :=
  if h : m < 50000 then max (X (ix2 ⟨m, h⟩ q) + b (ix1 q)) Z else 0

/-- The sum of block t's 2000 activated entries in column q. -/
def blockSum (X : Vec Ideal S50000x128 .f32) (b : Vec Ideal S128 .f32) (q : Fin 128) (t : ℕ) : EReal :=
  ∑ r : Fin 2000, term X b q (2000 * t + r.val)

open Idealize.ShloMosaic.ValueIdx in
/-- A block `x0` that reads rows 2000 t .. of `X`, with a bias `x1` that reads `b`, sums to block t's sum. -/
theorem block_eq (X : Vec Ideal S50000x128 .f32) (b : Vec Ideal S128 .f32) (x0 : Vec Ideal S2000x128 .f32)
    (x1 : Vec Ideal S128 .f32) (q : Fin 128) (t : ℕ) (ht : t < 25)
    (h0 : ∀ (r : Fin 2000) (hr : 2000 * t + r.val < 50000), x0 (ix2 r q) = X (ix2 ⟨2000 * t + r.val, hr⟩ q))
    (h1 : x1 (ix1 q) = b (ix1 q)) :
    ∑ r : Fin 2000, max (x0 (ix2 r q) + x1 (ix1 q)) (Ideal.ofBits .f32 0x00000000#32) = blockSum X b q t := by
  unfold blockSum
  refine Finset.sum_congr rfl fun r _ => ?_
  have hr : 2000 * t + r.val < 50000 := by have := r.isLt; omega
  unfold term
  rw [dif_pos hr, h0 r hr, h1]

open Idealize.ShloMosaic.ValueIdx in
/-- By induction on the point: point 0 leaves the zero word's value plus block 0's sum, and every later point adds
    its block's sum to what the point before left. -/
theorem outsAt_eq (c : Dev nD) : ∀ (n : ℕ) (h : n < cfg3.N) (u : Fin 1) (q : Fin 128),
    outsAt3 V c n h (ix2 u q) = Z + ∑ t ∈ Finset.range (n + 1), blockSum (V c main_v70) (V c main_arg12) q t
  | 0, h, u, q => by
    have e := (outsAt3_A V c ⟨0, h⟩ rfl).trans
      (out_A c _ _ _ _ _ _ _ _ (iblk3 V c 0 ⟨0, h⟩) (iblk3 V c 1 ⟨0, h⟩))
    refine (congrFun e (ix2 u q)).trans ?_
    refine (pay2_apply (iblk3 V c 0 ⟨0, h⟩) (iblk3 V c 1 ⟨0, h⟩) _ u q).trans ?_
    rw [Finset.sum_range_succ, Finset.sum_range_zero, zero_add]
    refine congrArg₂ (· + ·) rfl ?_
    exact block_eq (V c main_v70) (V c main_arg12) (iblk3 V c 0 ⟨0, h⟩) (iblk3 V c 1 ⟨0, h⟩) q 0 (by omega)
      (fun r hr => iblk0_apply V c ⟨0, h⟩ r q hr) (iblk1_apply V c ⟨0, h⟩ q)
  | n + 1, h, u, q => by
    have hN : cfg3.N = 25 := N_3
    have hB : ¬(⟨n + 1, h⟩ : Fin cfg3.N).val % 25 = 0 := by dsimp only; omega
    have e := (outsAt3_B V c ⟨n + 1, h⟩ hB).trans
      (out_B c _ _ _ _ _ _ _ _ (iblk3 V c 0 ⟨n + 1, h⟩) (iblk3 V c 1 ⟨n + 1, h⟩) _)
    refine (congrFun e (ix2 u q)).trans ?_
    refine (pay2_apply (iblk3 V c 0 ⟨n + 1, h⟩) (iblk3 V c 1 ⟨n + 1, h⟩) _ u q).trans ?_
    rw [Finset.sum_range_succ _ (n + 1), ← add_assoc]
    refine congrArg₂ (· + ·) ?_ ?_
    · exact outsAt_eq c n _ u q
    · exact block_eq (V c main_v70) (V c main_arg12) (iblk3 V c 0 ⟨n + 1, h⟩) (iblk3 V c 1 ⟨n + 1, h⟩) q (n + 1)
        (by omega) (fun r hr => iblk0_apply V c ⟨n + 1, h⟩ r q hr) (iblk1_apply V c ⟨n + 1, h⟩ q)

/-! ## Regrouping -/

/-- 50000 nodes are 25 blocks of 2000: node 2000 t + r is row r of block t, so a sum over the nodes is the sum over
    the blocks of the sums inside them (addition of extended reals is associative and commutative). -/
theorem sum_nodes (f : ℕ → EReal) :
    ∑ n : Fin 50000, f n.val = ∑ t ∈ Finset.range 25, ∑ r : Fin 2000, f (2000 * t + r.val) := by
  rw [Finset.sum_range]
  have e : 25 * 2000 = 50000 := by norm_num
  rw [← Equiv.sum_comp ((finProdFinEquiv (m := 25) (n := 2000)).trans (finCongr e)) (fun n => f n.val),
    Fintype.sum_prod_type]
  refine Finset.sum_congr rfl fun t _ => Finset.sum_congr rfl fun r _ => ?_
  refine congrArg f ?_
  show r.val + 2000 * t.val = 2000 * t.val + r.val
  omega

/-! ## The specification at a column -/

open Idealize.ShloMosaic.ValueIdx in
/-- The activation at a node and a column: the bias added, then the maximum with the zero word's value. -/
theorem act_apply (X : (⟨Cert.ReferenceIdeal.S50000x128, .f32⟩ : BufTy).Contents (Elt Ideal))
    (b : (⟨Cert.ReferenceIdeal.S128, .f32⟩ : BufTy).Contents (Elt Ideal)) (n : Fin 50000) (q : Fin 128) :
    Cert.Net.act (F := Ideal) X b (ix2 n q) = max (X (ix2 n q) + b (ix1 q)) Z := by
  unfold Cert.Net.act
  refine (maximumf_apply _ _ _).trans ?_
  refine congrArg₂ max ?_ ?_
  · refine (addf_apply _ _ _).trans ?_
    refine congrArg (X (ix2 n q) + ·) ?_
    refine (broadcastInDim_apply _ _ _ (ix2 n q) (ix2 (0 : Fin 1) q) (fun a => ?_)).trans ?_
    · match a with
      | ⟨0, _⟩ => rfl
      | ⟨1, _⟩ => rfl
    exact broadcastInDim_apply _ _ _ (ix2 (0 : Fin 1) q) (ix1 q) (fun a => by match a with | ⟨0, _⟩ => rfl)
  · exact broadcastInDim_apply _ _ _ (ix2 n q) ix0 (fun a => a.elim0)

open Idealize.ShloMosaic.ValueIdx in
/-- The pooled row at a column: the zero word's value plus the sum over all 50000 nodes. -/
theorem pool_apply (Y : (⟨Cert.ReferenceIdeal.S50000x128, .f32⟩ : BufTy).Contents (Elt Ideal)) (u : Fin 1) (q : Fin 128) :
    Cert.Net.pool (F := Ideal) Y (ix2 u q) = Z + ∑ n : Fin 50000, Y (ix2 n q) := by
  unfold Cert.Net.pool
  refine (broadcastInDim_apply _ _ _ (ix2 u q) (ix1 q) (fun a => by match a with | ⟨0, _⟩ => rfl)).trans ?_
  simp only [Host.reduceAdd, Ideal.hostReduceAdd_def]
  rw [Ideal.hostReduceAdd_single Cert.ReferenceIdeal.Gen.reducesTo_S50000x128_S128_d0 (by decide)]
  refine congrArg₂ (· + ·) rfl (Finset.sum_congr rfl fun n _ => ?_)
  exact congrArg Y (funext fun a => Fin.ext (by match a with | ⟨0, _⟩ => rfl | ⟨1, _⟩ => rfl))

open Idealize.ShloMosaic.ValueIdx in
/-- So the pooled activation at a column is the zero word's value plus the sum of all 50000 terms. -/
theorem pool_act_apply (X : (⟨Cert.ReferenceIdeal.S50000x128, .f32⟩ : BufTy).Contents (Elt Ideal))
    (b : (⟨Cert.ReferenceIdeal.S128, .f32⟩ : BufTy).Contents (Elt Ideal)) (u : Fin 1) (q : Fin 128) :
    Cert.Net.pool (F := Ideal) (Cert.Net.act X b) (ix2 u q) = Z + ∑ n : Fin 50000, term X b q n.val := by
  rw [pool_apply]
  refine congrArg₂ (· + ·) rfl (Finset.sum_congr rfl fun n _ => ?_)
  rw [act_apply]
  unfold term
  rw [dif_pos n.isLt]

/-! ## The array after the call -/

open Idealize.ShloMosaic.ValueIdx in
/-- After the last block the running sum is the pooled row: both are the zero word's value plus the same 50000 terms,
    grouped by blocks on one side. -/
theorem last_eq (c : Dev nD) (t : Fin cfg3.N) (h24 : t.val = 24) :
    (outsAt3 V c t.val t.isLt : Vec Ideal S1x128 .f32)
      = Cert.Net.pool (F := Ideal) (Cert.Net.act (V c main_v70) (V c main_arg12)) := by
  funext y
  obtain ⟨u, q, rfl⟩ : ∃ (u : Fin 1) (q : Fin 128), y = ix2 u q := ⟨y 0, y 1, eq_ix2 y⟩
  refine (outsAt_eq V c t.val t.isLt u q).trans ?_
  refine Eq.trans ?_ (pool_act_apply (V c main_v70) (V c main_arg12) u q).symm
  rw [sum_nodes (term (V c main_v70) (V c main_arg12) q), h24]
  rfl

/-- The one write-back, after the last block, writes the pooled row: the output's one block is the whole row. -/
theorem flushed_eq (c : Dev nD) (t : Fin cfg3.N) (hf : (cfg3.win 2).flush t = true) :
    (dat3 V c).flushed 2 t = ((cfg3.win 2).blk t).view.read (Elt Ideal)
      (Cert.Net.pool (F := Ideal) (Cert.Net.act (V c main_v70) (V c main_arg12))) := by
  have hN : cfg3.N = 25 := N_3
  have h24 : t.val = 24 := by have := (flush3_2 t).mp hf; have := t.isLt; omega
  have hz' : (fun a => win3_2.index t a * main_v71.ty.shape.size a) = fun _ => 0 := funext fun a => by
    match a with
    | ⟨0, _⟩ => show win3_2.index t 0 * _ = 0; rw [(idx3_2 t).1]; exact Nat.zero_mul _
    | ⟨1, _⟩ => show win3_2.index t 1 * _ = 0; rw [(idx3_2 t).2]; exact Nat.zero_mul _
  show (cfg3.win 2).cut (grid3.coords t) ((dat3 V c).after 2 t) = _
  rw [after3_2, last_eq V c t h24]
  exact (Memref.read_access_unit_zero (Elt Ideal) main_v71 hz' (fun a => by rw [congrFun hz' a]; simp)
    (Cert.Net.pool (F := Ideal) (Cert.Net.act (V c main_v70) (V c main_arg12)))).symm

/-- The last point of the grid. -/
abbrev tLast : Fin cfg3.N := ⟨24, by rw [show cfg3.N = 25 from N_3]; decide⟩

/-- After the last call the one output row is the sum over all 50000 nodes of the activated aggregate. -/
theorem value (c : Dev nD) :
    (dat3 V c).arrAt 2 cfg3.N = Cert.Net.pool (F := Ideal) (Cert.Net.act (V c main_v70) (V c main_arg12)) := by
  refine (dat3 V c).arrAt_eq_of_cover 2 _ (flushed_eq V c) fun i => ⟨tLast, (flush3_2 tLast).mpr rfl, ?_⟩
  show i ∈ ((View.whole main_v71).slice (win3_2.rect tLast)).set
  rw [View.set_slice_whole, Rect.mem_set_unit]
  intro a
  have h0 : (i 0 : Nat) < 1 := (i 0).isLt
  have h1 : (i 1 : Nat) < 128 := (i 1).isLt
  match a with
  | ⟨0, _⟩ =>
    show win3_2.index tLast 0 * win3_2.size 0 ≤ (i 0 : Nat)
      ∧ (i 0 : Nat) < win3_2.index tLast 0 * win3_2.size 0 + win3_2.xsize (grid3.coords tLast) 0
    rw [(idx3_2 tLast).1]
    show 0 * 1 ≤ (i 0 : Nat) ∧ (i 0 : Nat) < 0 * 1 + 1
    omega
  | ⟨1, _⟩ =>
    show win3_2.index tLast 1 * win3_2.size 1 ≤ (i 1 : Nat)
      ∧ (i 1 : Nat) < win3_2.index tLast 1 * win3_2.size 1 + win3_2.xsize (grid3.coords tLast) 1
    rw [(idx3_2 tLast).2]
    show 0 * 128 ≤ (i 1 : Nat) ∧ (i 1 : Nat) < 0 * 128 + 128
    omega

end Cert.KernelIdeal.Region3

end
-- ==== Proof.RefNet.lean ====
/-
  The reference program's result is the network of `Net`: three rounds of product, messages and activation, the sum over
  the nodes, the mean, the output column and the output bias — its run's term, layer by layer.
-/
import proofs.«429124_j15865609191626_3_alg».proof.Proof.Gen.ReferenceIdeal.Run
import proofs.«429124_j15865609191626_3_alg».proof.Proof.Net

set_option maxRecDepth 16384

noncomputable section

namespace Cert.ReferenceIdeal.RefNet

open Cert.ReferenceIdeal Cert.ReferenceIdeal.Gen Idealize.ShloMosaic Idealize.ShloMosaic.TcCoe Idealize.SL.Sem

variable {F : FTy → Type} [FloatOps F]

/-- The network as one function of the seventeen arguments' launch contents. -/
abbrev net (m : (ℓ : Loc nD τ sig) → Buf (Elt F) ℓ) (c : Dev nD) : Buf (Elt F) ((c.tc : Thread nD τ).loc main_v88) :=
  Cert.Net.head (Cert.Net.pool (Cert.Net.act (Cert.Net.agg (Cert.Net.lin (Cert.Net.act (Cert.Net.agg (Cert.Net.lin (Cert.Net.act (Cert.Net.agg (Cert.Net.lin (m ((c.tc : Thread nD τ).loc main_arg0)) (m ((c.tc : Thread nD τ).loc main_arg3))) (m ((c.tc : Thread nD τ).loc main_arg1)) (m ((c.tc : Thread nD τ).loc main_arg2)) (m ((c.tc : Thread nD τ).loc main_arg5)) (m ((c.tc : Thread nD τ).loc main_arg6))) (m ((c.tc : Thread nD τ).loc main_arg4))) (m ((c.tc : Thread nD τ).loc main_arg7))) (m ((c.tc : Thread nD τ).loc main_arg1)) (m ((c.tc : Thread nD τ).loc main_arg2)) (m ((c.tc : Thread nD τ).loc main_arg9)) (m ((c.tc : Thread nD τ).loc main_arg10))) (m ((c.tc : Thread nD τ).loc main_arg8))) (m ((c.tc : Thread nD τ).loc main_arg11))) (m ((c.tc : Thread nD τ).loc main_arg1)) (m ((c.tc : Thread nD τ).loc main_arg2)) (m ((c.tc : Thread nD τ).loc main_arg13)) (m ((c.tc : Thread nD τ).loc main_arg14))) (m ((c.tc : Thread nD τ).loc main_arg12)))) (m ((c.tc : Thread nD τ).loc main_arg15)) (m ((c.tc : Thread nD τ).loc main_arg16))

theorem res_eq (m : (ℓ : Loc nD τ sig) → Buf (Elt F) ℓ) (c : Dev nD) : Cert.ReferenceIdeal.Value.res_main_v88 m c = net m c := by
  unfold Cert.ReferenceIdeal.Value.res_main_v88
  rfl

end Cert.ReferenceIdeal.RefNet

end
-- ==== Proof.lean ====
/-
  The kernel and its reference compute one network, so their results are equal over the extended reals.

  Both programs run three message-passing layers over 50000 nodes and 800000 edges, then average over the nodes and apply
  an output column and bias (`Net`: `lin`, `agg`, `act`, `pool`, `head`). They differ only in where the dense work is
  done. The reference multiplies the whole 50000 x 128 feature array with each 128 x 128 matrix and sums all rows at
  once. The kernel cuts the nodes into 25 blocks of 2000 rows: three calls multiply block by block, the later two adding
  the previous layer's bias and taking the maximum with zero on the block first, and a last call adds up the 25 block
  sums in one row that it resets at the first block. Over the extended reals a matrix product is a sum of 128 products
  entry by entry, so a row block of the product is the product of the row block; and a sum over 50000 rows is the sum of
  25 sums over 2000 rows, because addition there is associative and commutative: no finiteness of the inputs is used.
  The gather, the gate, the product and the scatter-add between the calls are the same operations in both programs.

  So each buffer the kernel program writes holds the reference's value of the same stage (`Fold`, `Region0` ... `Region3`),
  the reference's run ends at the network of its arguments (`RefNet`), and arguments that agree give equal results.
  The frames are the generated ones; the ideal pass rewrote nothing, so the kernel's idealization is its own text.
-/
import proofs.«429124_j15865609191626_3_alg».proof.Defs
import proofs.«429124_j15865609191626_3_alg».proof.Proof.Gen.Kernel
import proofs.«429124_j15865609191626_3_alg».proof.Proof.Gen.Kernel.Skeleton
import proofs.«429124_j15865609191626_3_alg».proof.Proof.Gen.Kernel.Launch
import proofs.«429124_j15865609191626_3_alg».proof.Proof.Gen.Kernel.Points
import proofs.«429124_j15865609191626_3_alg».proof.Proof.Gen.Kernel.Frame
import proofs.«429124_j15865609191626_3_alg».proof.Proof.Gen.KernelIdeal
import proofs.«429124_j15865609191626_3_alg».proof.Proof.Gen.KernelIdeal.Skeleton
import proofs.«429124_j15865609191626_3_alg».proof.Proof.Gen.KernelIdeal.Launch
import proofs.«429124_j15865609191626_3_alg».proof.Proof.Gen.KernelIdeal.Points
import proofs.«429124_j15865609191626_3_alg».proof.Proof.Gen.KernelIdeal.Frame
import proofs.«429124_j15865609191626_3_alg».proof.Proof.Gen.ReferenceIdeal
import proofs.«429124_j15865609191626_3_alg».proof.Proof.Gen.ReferenceIdeal.Run
import proofs.«429124_j15865609191626_3_alg».proof.Proof.Gen.ReferenceIdeal.Read
import proofs.«429124_j15865609191626_3_alg».proof.Proof.Gen.Pre_finite_inputs
import proofs.«429124_j15865609191626_3_alg».proof.Proof.Net
import proofs.«429124_j15865609191626_3_alg».proof.Proof.MainRun
import proofs.«429124_j15865609191626_3_alg».proof.Proof.Fold
import proofs.«429124_j15865609191626_3_alg».proof.Proof.Region0
import proofs.«429124_j15865609191626_3_alg».proof.Proof.Region1
import proofs.«429124_j15865609191626_3_alg».proof.Proof.Region2
import proofs.«429124_j15865609191626_3_alg».proof.Proof.Region3
import proofs.«429124_j15865609191626_3_alg».proof.Proof.RefNet
import Idealize.ShloMosaic.Adequacy
import Idealize.ShloMosaic.Init

set_option maxRecDepth 16384

noncomputable section

namespace Cert.Proof

open Idealize.ShloMosaic Idealize.ShloMosaic.TcCoe Idealize.SL.Sem

/-- The network of the kernel program's own arguments. -/
abbrev knet (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v76) :=
  Cert.Net.head (Cert.Net.pool (Cert.Net.act (Cert.Net.agg (Cert.Net.lin (Cert.Net.act (Cert.Net.agg (Cert.Net.lin (Cert.Net.act (Cert.Net.agg (Cert.Net.lin (m ((c.tc : Thread Cert.KernelIdeal.nD Cert.KernelIdeal.τ).loc Cert.KernelIdeal.main_arg0)) (m ((c.tc : Thread Cert.KernelIdeal.nD Cert.KernelIdeal.τ).loc Cert.KernelIdeal.main_arg3))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg4))) (m ((c.tc : Thread Cert.KernelIdeal.nD Cert.KernelIdeal.τ).loc Cert.KernelIdeal.main_arg7))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (m ((c.tc : Thread Cert.KernelIdeal.nD Cert.KernelIdeal.τ).loc Cert.KernelIdeal.main_arg8))) (m ((c.tc : Thread Cert.KernelIdeal.nD Cert.KernelIdeal.τ).loc Cert.KernelIdeal.main_arg11))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) (m ((c.tc : Thread Cert.KernelIdeal.nD Cert.KernelIdeal.τ).loc Cert.KernelIdeal.main_arg12)))) (m ((c.tc : Thread Cert.KernelIdeal.nD Cert.KernelIdeal.τ).loc Cert.KernelIdeal.main_arg15)) (m ((c.tc : Thread Cert.KernelIdeal.nD Cert.KernelIdeal.τ).loc Cert.KernelIdeal.main_arg16))

section KernelValue

open Cert.KernelIdeal Cert.KernelIdeal.Gen

/-- The kernel program's result buffer holds the network of its arguments: the last stretch is `head` on the last call's
    row, that row is `pool` of the activated third aggregate, each aggregate is `agg` of the preceding call's product,
    and each product is `lin` of the activated aggregate before it, down to the node features. -/
theorem kernel_value (m : (ℓ : Loc nD τ sig) → Buf (Elt Ideal) ℓ) (ρ : Dev nD → PrngReg) (c : Dev nD) :
    W9 m ρ c (Proc.devRef .tc main_v76) = knet m c := by
  obtain ⟨i0a, i0b⟩ := Cert.KernelIdeal.Fold.in0 m ρ c
  obtain ⟨i1a, i1b, i1c⟩ := Cert.KernelIdeal.Fold.in1 m ρ c
  obtain ⟨i2a, i2b, i2c⟩ := Cert.KernelIdeal.Fold.in2 m ρ c
  obtain ⟨i3a, i3b⟩ := Cert.KernelIdeal.Fold.in3 m ρ c
  rw [Cert.KernelIdeal.Fold.result, Cert.KernelIdeal.Fold.out3, Cert.KernelIdeal.Region3.value, i3a, i3b,
    Cert.KernelIdeal.Fold.out2, Cert.KernelIdeal.Region2.value, i2a, i2b, i2c,
    Cert.KernelIdeal.Fold.out1, Cert.KernelIdeal.Region1.value, i1a, i1b, i1c,
    Cert.KernelIdeal.Fold.out0, Cert.KernelIdeal.Region0.value, i0a, i0b]

end KernelValue

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end at the network of their arguments, and the arguments agree. -/
theorem algebraic : Cert.algebraic_KernelIdeal_ReferenceIdeal := by
  intro m ρ m' ρ' _ hagree
  refine ⟨fun c => knet m c, ?_, ?_⟩
  · exact (θ_run Cert.KernelIdeal.defs _ _).mono (fun r h c => ⟨(h c).1.trans (kernel_value m ρ c), (h c).2⟩)
      (Cert.KernelIdeal.RunValue.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefNet.res_eq]
    obtain ⟨h0, h1, h2, h3, h4, h5, h6, h7, h8, h9, h10, h11, h12, h13, h14, h15, h16⟩ := hagree c
    show Cert.ReferenceIdeal.RefNet.net m' c = knet m c
    dsimp only [Cert.ReferenceIdeal.RefNet.net, knet]
    rw [h0, h1, h2, h3, h4, h5, h6, h7, h8, h9, h10, h11, h12, h13, h14, h15, h16]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
